-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S16x4096 .f32) (main_arg3 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S256x4096 : Shape := ⟨2, ![256, 4096]⟩
abbrev S256x16 : Shape := ⟨2, ![256, 16]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .bf16⟩
  | .hbm, ⟨5, _⟩ => ⟨S8192x4096, .f32⟩
  | .hbm, ⟨6, _⟩ => ⟨S8192x4096, .bf16⟩
  | .hbm, ⟨7, _⟩ => ⟨S8192x4096, .f32⟩
  | .hbm, ⟨8, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x16, .f32⟩
  | .local _ .vmem, ⟨3, _⟩ => ⟨S256x16, .f32⟩
  | .local _ .vmem, ⟨4, _⟩ => ⟨S16x4096, .f32⟩
  | .local _ .vmem, ⟨5, _⟩ => ⟨S256x4096, .bf16⟩
  | .local _ .vmem, ⟨6, _⟩ => ⟨S256x4096, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S256x16_S256x16_0_0 : ∀ a, (![0, 0] : Fin 2 → Nat) a + S256x16.size a ≤ S256x16.size a
  h_S256x16 : 0 < S256x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8192x4096_S4x2048x4096 : S8192x4096.ShapeCasts S4x2048x4096
  dot_S256x16_S16x4096_S256x4096_1_0_0_1_n_n_wf : DotDims.WF S256x16 S16x4096 S256x4096 [1] [0] [0] [1] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S4096x16.size a
  hwx0_1 : ∀ i : grid0.Coords, EltTy.bits .f32 = 32 ∨ (Rect.block (s := S4096x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x4096.size a
  hwx1_0 : ∀ i : grid1.Coords, EltTy.bits .bf16 = 32 ∨ (Rect.block (s := S8192x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4x2048x4096, .f32⟩
  | .hbm, ⟨5, _⟩ => ⟨S4096x4096, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4096x16_S16x4096_S4096x4096_1_0_0_1_n_n_wf : DotDims.WF S4096x16 S16x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Bits.FoldRegion.lean ====
/-
  The first kernel region: folding the low-rank update into the weight, a tile of 256 rows at a time.
  At grid point t the body reads the weight tile W[256t .. 256t+255, :], the matching 256 rows of B and the
  whole of A, and stores  W_tile + 2 · (B_tile · A)  (narrowed to the output's format) over its whole output
  tile. Nothing is carried from one point to the next, so the region's proof data name, per point, each input
  tile as the body found it and the output tile as that one expression of the three input tiles.
-/
import proofs.«123762_j39341900431501_1_alg».proof.Proof.Gen.Kernel.Launch
import proofs.«123762_j39341900431501_1_alg».proof.Proof.Gen.Kernel.Skeleton
import proofs.«123762_j39341900431501_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The contents of the TensorCore's buffers when the region is entered.
variable (V : (c : Dev nD) → (b : Ref sig .tc) → Buf (Elt F) ((c : Thread nD τ).loc b))

/-- The tile of window `w`'s array that grid point `t` addresses, read off the entry contents. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A rectangle at offsets `![0, 0]` starts at the origin. -/
theorem origin2 : (![0, 0] : Fin 2 → Nat) = fun _ => 0 := by
  funext a; fin_cases a <;> rfl

set_option maxHeartbeats 1000000 in
/-- One run of the body on whole staging buffers holding a weight tile `w`, a B tile `b` and A `a`: the inputs
    are left as found and the output buffer, whatever it held, ends at `k0_pay1 b a w` — the one store covers the
    whole tile, so what is read back is its payload, and each load through the whole-tile rectangle reads the
    buffer's contents. -/
theorem body_run (c : Dev nD) (E : Set ℕ) (i : grid0.Coords)
    (arg1 : Memref sig .tc .vmem S256x4096 .f32) (harg1 : arg1.IsWhole) (arg2 : Memref sig .tc .vmem S256x16 .f32) (harg2 : arg2.IsWhole)
    (arg3 : Memref sig .tc .vmem S16x4096 .f32) (harg3 : arg3.IsWhole) (arg4 : Memref sig .tc .vmem S256x4096 .bf16) (harg4 : arg4.IsWhole)
    (w : Vec F S256x4096 .f32) (b : Vec F S256x16 .f32) (a : Vec F S16x4096 .f32) (K : PUnit → sProp 𝕄) :
    iprop(owns (c : Thread nD τ) arg1 fullShare w ∗ owns (c : Thread nD τ) arg2 fullShare b ∗ owns (c : Thread nD τ) arg3 fullShare a
        ∗ (∃ d, owns (c : Thread nD τ) arg4 fullShare d)
        ∗ (iprop(owns (c : Thread nD τ) arg1 fullShare w ∗ owns (c : Thread nD τ) arg2 fullShare b ∗ owns (c : Thread nD τ) arg3 fullShare a
            ∗ owns (c : Thread nD τ) arg4 fullShare (k0_pay1 b a w)) -∗ K ⟨⟩))
      ⊢ wp frame (wpE (defs₀ (F := F)) Variants.none c none) E (cc0__eff_weight_kernel i arg1 harg1 arg2 harg2 arg3 harg3 arg4 harg4) K := by
  simp only [cc0__eff_weight_kernel_eq_skeleton]; unfold cc0__eff_weight_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero origin2 inb_S256x4096_S256x4096_0_0 y⟩),
    View.canon_unit_zero origin2]
  simp only [View.readAt_eq_ld, View.ld_unit_zero (S := S256x16) origin2, View.ld_unit_zero (S := S16x4096) origin2,
    View.ld_unit_zero (S := S256x4096) origin2]

/-- The region's proof data on core `c`: the arrays as entered; after the body at point `t` each input buffer
    still at its tile and the output buffer at `k0_pay1` of the three input tiles; between points only what the
    kernel never touches (the other region's scoped buffers, the generator register); nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => k0_pay1 (tile V c 1 t) (tile V c 2 t) (tile V c 0 t)
  Φ _ := Pipeline.ΦA spec0 c
  q _ := fullShare
  owed _ := 0

theorem dat_A (c : Dev nD) (w : Fin cfg0.W) : (dat V c).A w = V c (Pipeline.arrRef spec0 w) := by
  dsimp only [dat]
theorem dat_after0 (c : Dev nD) (t : Fin cfg0.N) : (dat V c).after 0 t = tile V c 0 t := by dsimp only [dat]
theorem dat_after1 (c : Dev nD) (t : Fin cfg0.N) : (dat V c).after 1 t = tile V c 1 t := by dsimp only [dat]
theorem dat_after2 (c : Dev nD) (t : Fin cfg0.N) : (dat V c).after 2 t = tile V c 2 t := by dsimp only [dat]
theorem dat_after3 (c : Dev nD) (t : Fin cfg0.N) :
    (dat V c).after 3 t = k0_pay1 (tile V c 1 t) (tile V c 2 t) (tile V c 0 t) := by dsimp only [dat]

/-- An input's staging buffer holds the point's tile whenever the body runs: just fetched, or (A, fetched once)
    kept from the point before, where the body left it in place and the tile addressed has not moved. -/
theorem found0 (c : Dev nD) (t : Fin cfg0.N) (d) : (dat V c).before 0 t d = tile V c 0 t :=
  ((dat V c).before_in_eq_fetched 0 rfl (fun _ => rfl) (fun _ _ _ => rfl)
    (fun t => by rw [dat_after0]; unfold Dat.blockOf tile; rw [dat_A]; try rfl) t d).trans
    (by unfold Dat.fetched Dat.blockOf tile; rw [dat_A]; try rfl)
theorem found1 (c : Dev nD) (t : Fin cfg0.N) (d) : (dat V c).before 1 t d = tile V c 1 t :=
  ((dat V c).before_in_eq_fetched 1 rfl (fun _ => rfl) (fun _ _ _ => rfl)
    (fun t => by rw [dat_after1]; unfold Dat.blockOf tile; rw [dat_A]; try rfl) t d).trans
    (by unfold Dat.fetched Dat.blockOf tile; rw [dat_A]; try rfl)
theorem found2 (c : Dev nD) (t : Fin cfg0.N) (d) : (dat V c).before 2 t d = tile V c 2 t :=
  ((dat V c).before_in_eq_fetched 2 rfl (fun _ => rfl) (fun _ _ _ => rfl)
    (fun t => by rw [dat_after2]; unfold Dat.blockOf tile; rw [dat_A]; try rfl) t d).trans
    (by unfold Dat.fetched Dat.blockOf tile; rw [dat_A]; try rfl)

/-- The body obligation of the pipeline rule, at every point: the three inputs are found at their tiles, so
    `body_run` applies; the invariant and the (empty) debt pass through untouched. -/
theorem obligation (c : Dev nD) : BodyObligation (dat (F := F) V c) (defs₀ (F := F)) Variants.none () Set.univ := fun t => by
  rw [bigSep_W0, bigSep_W0]
  simp only [found0, found1, found2]
  rw [show (dat V c).Φ t.succ = (dat V c).Φ t.castSucc from rfl,
    show (dat V c).owesAt () t.succ = (dat V c).owesAt () t.castSucc from rfl,
    dat_after0, dat_after1, dat_after2, dat_after3]
  iintro ⟨HΦ, Ho, ⟨%d0, H0⟩, ⟨%d1, H1⟩, ⟨%d2, H2⟩, ⟨%d3, H3⟩⟩
  have hb := body_run (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (tile V c 0 t) (tile V c 1 t) (tile V c 2 t)
  iapply hb
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Fold

end
-- ==== Proof.Bits.AccRegion.lean ====
/-
  The second kernel region: the product of the activations with the folded weight, one 1024 × 1024 output tile
  at a time, the contraction axis cut in two halves of 2048. Grid point t = 2·q + k works on output tile q and
  half k. At k = 0 the body clears its accumulator and adds the first half's product  a₀ · b₀ᵀ ; at k = 1 it adds
  the second half's product to what the accumulator holds and copies the sum to the output tile. The accumulator
  is a scratch buffer the pipeline does not stage, so the region's invariant carries it: before a point whose
  predecessor was a first half, the scratch holds that half's partial product.
-/
import proofs.«123762_j39341900431501_1_alg».proof.Proof.Gen.Kernel.Launch
import proofs.«123762_j39341900431501_1_alg».proof.Proof.Gen.Kernel.Skeleton
import proofs.«123762_j39341900431501_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The contents of the TensorCore's buffers when the region is entered.
variable (V : (c : Dev nD) → (b : Ref sig .tc) → Buf (Elt F) ((c : Thread nD τ).loc b))

/-- The tile of window `w`'s array that grid point `t` addresses, read off the entry contents. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A rectangle at offsets `![0, 0]` starts at the origin. -/
theorem origin2 : (![0, 0] : Fin 2 → Nat) = fun _ => 0 := by
  funext a; fin_cases a <;> rfl

/-- The accumulator, a whole scoped buffer of the kernel's own. -/
abbrev scr : Memref sig .tc .vmem S1024x1024 .f32 := Memref.whole cc1_scratch0

/-! ## The two branches, by the position on the contraction axis -/

/-- The body's first test: the point is a first half. -/
abbrev atFirst (i : grid1.Coords) : Prop :=
  (Scalar.cmpi .ne (Scalar.extui (Scalar.cmpi .eq (BitVec.ofNat 32 (i 2).val) 0#32)) 0#32) = 1#1
/-- The body's second test: the point is a second (and last) half. -/
abbrev atLast (i : grid1.Coords) : Prop := k1_cond2 i = 1#1
theorem atFirst_iff : ∀ t : Fin cfg1.N, atFirst (grid1.coords t) ↔ t.val % 2 = 0 :=
  (by decide +kernel : ∀ t : Fin grid1.N, atFirst (grid1.coords t) ↔ t.val % 2 = 0)
theorem atLast_iff : ∀ t : Fin cfg1.N, atLast (grid1.coords t) ↔ t.val % 2 = 1 :=
  (by decide +kernel : ∀ t : Fin grid1.N, atLast (grid1.coords t) ↔ t.val % 2 = 1)

/-- At a first half the output window is idle and is not written back; at a second half it is live. -/
theorem out_idle_even : ∀ t : Fin cfg1.N, t.val % 2 = 0 → idle1 2 (grid1.coords t) = true :=
  (by decide +kernel : ∀ t : Fin grid1.N, t.val % 2 = 0 → idle1 2 (grid1.coords t) = true)
theorem out_kept_even : ∀ t : Fin cfg1.N, t.val % 2 = 0 → (cfg1.win 2).flush t = false :=
  (by decide +kernel : ∀ t : Fin grid1.N, t.val % 2 = 0 → win1_2.flush t = false)
theorem out_live_odd : ∀ t : Fin cfg1.N, t.val % 2 = 1 → idle1 2 (grid1.coords t) = false :=
  (by decide +kernel : ∀ t : Fin grid1.N, t.val % 2 = 1 → idle1 2 (grid1.coords t) = false)

set_option maxHeartbeats 1000000 in
/-- A first half, on whole buffers holding an activation tile `a` and a weight tile `b`: the accumulator, whatever it
    held, is cleared and then holds `k1_pay2 a b k1_pay1` (zero plus the product); the inputs and the output buffer are
    left as found. The clearing store covers the accumulator, so the load after it reads the zero payload, and the
    last store covers it again. -/
theorem first_run (c : Dev nD) (E : Set ℕ) (i : grid1.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (h0 : atFirst i) (h1 : ¬ atLast i)
    (a b : Vec F S1024x2048 .bf16) (o : Vec F S1024x1024 .f32) (K : PUnit → sProp 𝕄) :
    iprop(owns (c : Thread nD τ) arg3 fullShare a ∗ owns (c : Thread nD τ) arg4 fullShare b ∗ owns (c : Thread nD τ) arg5 fullShare o
        ∗ (∃ d, owns (c : Thread nD τ) arg6 fullShare d)
        ∗ (iprop(owns (c : Thread nD τ) arg3 fullShare a ∗ owns (c : Thread nD τ) arg4 fullShare b ∗ owns (c : Thread nD τ) arg5 fullShare o
            ∗ owns (c : Thread nD τ) arg6 fullShare (k1_pay2 a b (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, Hk⟩
  subst hf3; subst hf4; subst hf5
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero origin2 inb_S1024x1024_S1024x1024_0_0 y⟩),
    View.canon_cons_unit_zero origin2]
  simp only [View.readAt_eq_ld, View.readCov_unit_zero (S := S1024x1024) _ origin2, View.ld_unit_zero (S := S1024x2048) origin2,
    View.ld_unit_zero (S := S1024x1024) origin2]

set_option maxHeartbeats 1000000 in
/-- A second half, the accumulator holding `s`: it ends at `k1_pay2 a b s` and so does the output buffer, whatever
    that held (the copy reads the accumulator back after the store that covers it). -/
theorem last_run (c : Dev nD) (E : Set ℕ) (i : grid1.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (h0 : ¬ atFirst i) (h1 : atLast i)
    (a b : Vec F S1024x2048 .bf16) (s : Vec F S1024x1024 .f32) (K : PUnit → sProp 𝕄) :
    iprop(owns (c : Thread nD τ) arg3 fullShare a ∗ owns (c : Thread nD τ) arg4 fullShare b ∗ (∃ d, owns (c : Thread nD τ) arg5 fullShare d)
        ∗ owns (c : Thread nD τ) arg6 fullShare s
        ∗ (iprop(owns (c : Thread nD τ) arg3 fullShare a ∗ owns (c : Thread nD τ) arg4 fullShare b ∗ owns (c : Thread nD τ) arg5 fullShare (k1_pay2 a b s)
            ∗ owns (c : Thread nD τ) arg6 fullShare (k1_pay2 a b s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_singleton_self _, View.mem_set_unit_zero origin2 inb_S1024x1024_S1024x1024_0_0 y⟩),
      View.canon_unit_zero origin2]
    simp only [View.readAt_eq_ld, View.readCov_unit_zero (S := S1024x1024) _ origin2, View.ld_unit_zero (S := S1024x2048) origin2,
      View.ld_unit_zero (S := S1024x1024) origin2]
  iexists _; isplitr
  swap; · iexact H6
  ipureintro
  sl_unfold_words
  rw [View.read_writes_eq_canon _ _ _ (fun y => ⟨_, List.mem_singleton_self _, View.mem_set_unit_zero origin2 inb_S1024x1024_S1024x1024_0_0 y⟩),
    View.canon_unit_zero origin2]
  simp only [View.readAt_eq_ld, View.ld_unit_zero (S := S1024x2048) origin2, View.ld_unit_zero (S := S1024x1024) origin2]

/-! ## What the accumulator and the output tile hold -/

/-- The accumulator after the first half at point `t`: zero plus the product of the point's two tiles. -/
def half (c : Dev nD) (t : Fin cfg1.N) : Vec F S1024x1024 .f32 :=
  k1_pay2 (tile V c 0 t) (tile V c 1 t) (k1_pay1 (F := F))

/-- The point before `t` (the first half that a second half `t` completes). -/
def pred (t : Fin cfg1.N) : Fin cfg1.N := ⟨t.val - 1, by have := t.isLt; omega⟩

/-- The output tile after the second half at point `t`: the first half's partial product plus this half's. -/
def full (c : Dev nD) (t : Fin cfg1.N) : Vec F S1024x1024 .f32 :=
  k1_pay2 (tile V c 0 t) (tile V c 1 t) (half V c (pred t))

/-- The invariant before point `t` (`t` up to the number of points): the other region's staging buffers at whatever
    they hold, the generator register at some state, and the accumulator — at the partial product of the point before
    when that point was a first half, at some contents otherwise. -/
def inv (c : Dev nD) (t : Fin (cfg1.N + 1)) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ s, owns (c : Thread nD τ) scr fullShare s ∗ ⌜∀ u : Fin cfg1.N, u.val + 1 = t.val → u.val % 2 = 0 → s = half V c u⌝))
    ∗ ∃ r, prngReg c r)

/-- Entering the region: the accumulator at anything is the invariant before the first point. -/
theorem inv_first (c : Dev nD) : (Pipeline.ΦA spec1 c : sProp 𝕄) ⊢ inv V c 0 := by
  unfold Pipeline.ΦA inv; rw [scopedRest1_eq]; simp only [owns_whole]
  iintro ⟨⟨A1, A2, A3, A4, A5, A6, A7, ⟨%f, Hs⟩⟩, Hp⟩
  isplitr [Hp]
  swap; · iexact Hp
  isplitl [A1]; · iexact A1
  isplitl [A2]; · iexact A2
  isplitl [A3]; · iexact A3
  isplitl [A4]; · iexact A4
  isplitl [A5]; · iexact A5
  isplitl [A6]; · iexact A6
  isplitl [A7]; · iexact A7
  iexists f; isplitl [Hs]
  · iexact Hs
  ipureintro; intro u hu; exact absurd hu (by simp)

/-- Leaving it: whatever the accumulator holds is forgotten. -/
theorem inv_last (c : Dev nD) : inv V c (Fin.last cfg1.N) ⊢ (Pipeline.ΦA spec1 c : sProp 𝕄) := by
  unfold Pipeline.ΦA inv; rw [scopedRest1_eq]; simp only [owns_whole]
  iintro ⟨⟨A1, A2, A3, A4, A5, A6, A7, ⟨%s, Hs, -⟩⟩, Hp⟩
  isplitr [Hp]
  swap; · iexact Hp
  isplitl [A1]; · iexact A1
  isplitl [A2]; · iexact A2
  isplitl [A3]; · iexact A3
  isplitl [A4]; · iexact A4
  isplitl [A5]; · iexact A5
  isplitl [A6]; · iexact A6
  isplitl [A7]; · iexact A7
  iexists s; iexact Hs

/-! ## The proof data and the body obligation -/

/-- The region's proof data on core `c`: the arrays as entered; each input buffer left at its tile; the output
    buffer, at a second half, at `full` (at a first half the window is idle and its entry is not consulted);
    the invariant `inv`; nothing owed. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => full V c t
  Φ t := inv V c t
  q _ := fullShare
  owed _ := 0

theorem dat_A (c : Dev nD) (w : Fin cfg1.W) : (dat V c).A w = V c (Pipeline.arrRef spec1 w) := by
  dsimp only [dat]
theorem dat_after0 (c : Dev nD) (t : Fin cfg1.N) : (dat V c).after 0 t = tile V c 0 t := by dsimp only [dat]
theorem dat_after1 (c : Dev nD) (t : Fin cfg1.N) : (dat V c).after 1 t = tile V c 1 t := by dsimp only [dat]
theorem dat_after2 (c : Dev nD) (t : Fin cfg1.N) : (dat V c).after 2 t = full V c t := by dsimp only [dat]
theorem dat_inv (c : Dev nD) (t : Fin (cfg1.N + 1)) : (dat V c).Φ t = inv V c t := by dsimp only [dat]

/-- An input's staging buffer holds the point's tile whenever the body runs (both inputs are fetched at every point). -/
theorem found0 (c : Dev nD) (t : Fin cfg1.N) (d) : (dat V c).before 0 t d = tile V c 0 t :=
  ((dat V c).before_in_eq_fetched 0 rfl (fun _ => rfl) (fun _ _ _ => rfl)
    (fun t => by rw [dat_after0]; unfold Dat.blockOf tile; rw [dat_A]; try rfl) t d).trans
    (by unfold Dat.fetched Dat.blockOf tile; rw [dat_A]; try rfl)
theorem found1 (c : Dev nD) (t : Fin cfg1.N) (d) : (dat V c).before 1 t d = tile V c 1 t :=
  ((dat V c).before_in_eq_fetched 1 rfl (fun _ => rfl) (fun _ _ _ => rfl)
    (fun t => by rw [dat_after1]; unfold Dat.blockOf tile; rw [dat_A]; try rfl) t d).trans
    (by unfold Dat.fetched Dat.blockOf tile; rw [dat_A]; try rfl)

set_option maxHeartbeats 2000000 in
/-- The body obligation of the pipeline rule, at every point, by the point's parity: a first half runs from any
    accumulator and leaves the partial product there, handing the idle output buffer back as found; a second half finds
    the partial product of the point before (the invariant says so) and leaves the full tile in the output buffer. -/
theorem obligation (c : Dev nD) : BodyObligation (dat (F := F) V c) (defs₀ (F := F)) Variants.none () Set.univ := fun t => by
  rw [bigSep_W1, bigSep_W1]
  simp only [found0, found1]
  rw [show (dat V c).owesAt () t.succ = (dat V c).owesAt () t.castSucc from rfl, dat_after0, dat_after1, dat_inv, dat_inv]
  rcases Nat.mod_two_eq_zero_or_one t.val with he | ho
  · simp only [out_idle_even t he, out_kept_even t he]
    unfold inv
    iintro ⟨⟨⟨A1, A2, A3, A4, A5, A6, A7, ⟨%s, Hs, -⟩⟩, Hp⟩, Ho, ⟨%d0, H0⟩, ⟨%d1, H1⟩, ⟨%d2, H2⟩⟩
    have hb := first_run (F := F) c Set.univ (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (Memref.whole cc1_scratch0) (Memref.isWhole_whole _) ((atFirst_iff t).mpr he) (fun h => by have := (atLast_iff t).mp h; omega)
      (tile V c 0 t) (tile V c 1 t) ((dat V c).before 2 t d2)
    iapply hb
    isplitl [H0]; · iexact H0
    isplitl [H1]; · iexact H1
    isplitl [H2]; · iexact H2
    isplitl [Hs]; · iexists _; iexact Hs
    iintro ⟨H0, H1, H2, Hs⟩
    isplitr [Ho H0 H1 H2]
    · isplitr [Hp]
      swap; · iexact Hp
      isplitl [A1]; · iexact A1
      isplitl [A2]; · iexact A2
      isplitl [A3]; · iexact A3
      isplitl [A4]; · iexact A4
      isplitl [A5]; · iexact A5
      isplitl [A6]; · iexact A6
      isplitl [A7]; · iexact A7
      iexists _; isplitl [Hs]; · iexact Hs
      ipureintro; intro u hu _
      have : u = t := Fin.ext (by simpa using hu)
      rw [this]; rfl
    isplitl [Ho]; · iexact Ho
    isplitl [H0]; · iexact H0
    isplitl [H1]; · iexact H1
    iexists _; iexact H2
  · simp only [out_live_odd t ho]
    rw [dat_after2]
    unfold inv
    iintro ⟨⟨⟨A1, A2, A3, A4, A5, A6, A7, ⟨%s, Hs, %hs⟩⟩, Hp⟩, Ho, ⟨%d0, H0⟩, ⟨%d1, H1⟩, ⟨%d2, H2⟩⟩
    have hs' : s = half V c (pred t) := hs (pred t) (by simp only [pred, Fin.coe_castSucc]; omega) (by simp only [pred]; omega)
    subst hs'
    have hb := last_run (F := F) c Set.univ (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (Memref.whole cc1_scratch0) (Memref.isWhole_whole _) (fun h => by have := (atFirst_iff t).mp h; omega) ((atLast_iff t).mpr ho)
      (tile V c 0 t) (tile V c 1 t) (half V c (pred t))
    iapply hb
    isplitl [H0]; · iexact H0
    isplitl [H1]; · iexact H1
    isplitl [H2]; · iexists _; iexact H2
    isplitl [Hs]; · iexact Hs
    iintro ⟨H0, H1, H2, Hs⟩
    isplitr [Ho H0 H1 H2]
    · isplitr [Hp]
      swap; · iexact Hp
      isplitl [A1]; · iexact A1
      isplitl [A2]; · iexact A2
      isplitl [A3]; · iexact A3
      isplitl [A4]; · iexact A4
      isplitl [A5]; · iexact A5
      isplitl [A6]; · iexact A6
      isplitl [A7]; · iexact A7
      iexists _; isplitl [Hs]; · iexact Hs
      ipureintro; intro u hu hu2
      exfalso; simp only [Fin.val_succ] at hu; omega
    isplitl [Ho]; · iexact Ho
    isplitl [H0]; · iexact H0
    isplitl [H1]; · iexact H1
    iexact H2

end Cert.Kernel.Acc

end
-- ==== Proof.Bits.Segments.lean ====
/-
  The whole program as the pipeline library's list of segments: the weight-folding region, the host stretch that
  reads the activations as 8192 rows, the blocked-product region, the host stretch that reads the result back as
  [4, 2048, 4096]. Between two segments a core holds every unscoped buffer whole at a named valuation; the two regions
  change exactly one buffer each (the folded weight, the product), at the contents their write-backs leave.
-/
import proofs.«123762_j39341900431501_1_alg».proof.Proof.Bits.FoldRegion
import proofs.«123762_j39341900431501_1_alg».proof.Proof.Bits.AccRegion
import proofs.«123762_j39341900431501_1_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RegionSeg Seg HostSeg)

variable (m : (ℓ : Loc nD τ sig) → Buf (Elt F) ℓ)

/-! ## The contents at the boundaries -/

/-- The launch contents, read at the TensorCore's references. -/
abbrev atLaunch (c : Dev nD) (b : Ref sig .tc) : Buf (Elt F) ((c : Thread nD τ).loc b) := Gen.V0 m c b

/-- What the first region leaves in the folded-weight buffer: its write-backs, folded over the grid. -/
def foldOut (c : Dev nD) : Buf (Elt F) ((c : Thread nD τ).loc main_v0) := (Fold.dat (atLaunch m) c).arrAt 3 cfg0.N

/-- The buffers when the second region is entered: the launch contents with the folded weight in place, then the
    host stretch between the regions. -/
def midVal (c : Dev nD) : Valuation τ sig (Elt F) :=
  StableHlo.after hostOps1 (Function.update (Gen.V0 m c) main_v0 (foldOut m c))
abbrev atMid (c : Dev nD) (b : Ref sig .tc) : Buf (Elt F) ((c : Thread nD τ).loc b) := midVal m c b

/-- What the second region leaves in the product buffer. -/
def accOut (c : Dev nD) : Buf (Elt F) ((c : Thread nD τ).loc main_v3) := (Acc.dat (atMid m) c).arrAt 2 cfg1.N

/-- The regions' results as the generated valuations read them: the folded weight, the product, and elsewhere the
    launch contents (never read). -/
def outs : Gen.Outs (F := F) := fun _ r c =>
  Function.update (Function.update (fun b : Ref sig .tc => atLaunch m c b) main_v0 (foldOut m c)) main_v3 (accOut m c) r

theorem outs_fold (c : Dev nD) : outs m 1 main_v0 c = foldOut m c := by
  unfold outs; rw [Function.update_of_ne (by decide), Function.update_self]
theorem outs_acc (c : Dev nD) : outs m 3 main_v3 c = accOut m c := by
  unfold outs; rw [Function.update_self]

/-- The generated valuation before the second region is `midVal`. -/
theorem V2_eq (c : Dev nD) : Gen.V2 m (outs m) c = midVal m c := by
  show StableHlo.after hostOps1 (Function.update (Gen.V0 m c) main_v0 (outs m 1 main_v0 c)) = _
  rw [outs_fold]; rfl

/-! ## The proof data and the state that rides along -/

/-- Each pipeline's proof data at its region's entry contents. -/
def pdats : (p : Fin 2) → (c : Dev nD) → Dat τ (Elt F) Unit ℕ (UR sig nD τ) ℕ (cfgs p) c
  | ⟨0, _⟩ => fun c => Fold.dat (atLaunch m) c
  | ⟨1, _⟩ => fun c => Acc.dat (atMid m) c

abbrev noVar : Variants := Variants.none
abbrev noPairs : GSem nD τ sig → Finset Unit := fun _ => ∅
abbrev noLevel : GSem nD τ sig → Unit → ℕ := fun _ _ => 0

/-- Beside the buffers every segment carries the generator register at some state and the core's debt, which is nothing. -/
abbrev side (c : Dev nD) : sProp 𝕄 :=
  iprop((∃ r, prngReg c r) ∗ ∃ W, owes (c : Thread nD τ) (0 : CellTallies nD τ sig Unit) W)

/-! ## What each region leaves, read at the generated valuations -/

/-- After the first region every one of its arrays holds what the generated valuation `V1` says: the three inputs
    their launch contents (an input array is never written), the result the folded weight. -/
theorem fold_exit (c : Dev nD) : ∀ w : Fin cfg0.W, (pdats m 0 c).arrAt w cfg0.N = Gen.V1 m (outs m) c (Pipeline.arrRef spec0 w)
  | ⟨0, _⟩ => ((pdats m 0 c).arrAt_in 0 rfl _).trans (Gen.V1_of m (outs m) c main_arg1 (by decide)).symm
  | ⟨1, _⟩ => ((pdats m 0 c).arrAt_in 1 rfl _).trans (Gen.V1_of m (outs m) c main_arg3 (by decide)).symm
  | ⟨2, _⟩ => ((pdats m 0 c).arrAt_in 2 rfl _).trans (Gen.V1_of m (outs m) c main_arg2 (by decide)).symm
  | ⟨3, _⟩ => by
    show foldOut m c = Function.update (Gen.V0 m c) main_v0 (outs m 1 main_v0 c) main_v0
    rw [Function.update_self, outs_fold]

/-- Off the first region's arrays `V1` is the launch valuation. -/
theorem fold_rest (c : Dev nD) (b : Ref sig .tc) (hb : b ∉ Finset.univ.image (Pipeline.arrRef spec0)) :
    Gen.V1 m (outs m) c b = atLaunch m c b :=
  Gen.V1_of m (outs m) c b fun h => hb (by
    rw [List.mem_singleton.mp h]; exact Finset.mem_image.mpr ⟨3, Finset.mem_univ _, rfl⟩)

/-- After the second region: the two operands as entered, the result the blocked product. -/
theorem acc_exit (c : Dev nD) : ∀ w : Fin cfg1.W, (pdats m 1 c).arrAt w cfg1.N = Gen.V3 m (outs m) c (Pipeline.arrRef spec1 w)
  | ⟨0, _⟩ => ((pdats m 1 c).arrAt_in 0 rfl _).trans
      ((Gen.V3_of m (outs m) c main_v2 (by decide)).trans (congrFun (V2_eq m c) _)).symm
  | ⟨1, _⟩ => ((pdats m 1 c).arrAt_in 1 rfl _).trans
      ((Gen.V3_of m (outs m) c main_v0 (by decide)).trans (congrFun (V2_eq m c) _)).symm
  | ⟨2, _⟩ => by
    show accOut m c = Function.update (Gen.V2 m (outs m) c) main_v3 (outs m 3 main_v3 c) main_v3
    rw [Function.update_self, outs_acc]

/-- Off the second region's arrays `V3` is the valuation the region was entered at. -/
theorem acc_rest (c : Dev nD) (b : Ref sig .tc) (hb : b ∉ Finset.univ.image (Pipeline.arrRef spec1)) :
    Gen.V3 m (outs m) c b = atMid m c b :=
  (Gen.V3_of m (outs m) c b fun h => hb (by
    rw [List.mem_singleton.mp h]; exact Finset.mem_image.mpr ⟨2, Finset.mem_univ _, rfl⟩)).trans (congrFun (V2_eq m c) _)

/-! ## The regions as segments -/

set_option backward.isDefEq.respectTransparency.types false in
/-- The weight-folding region: entered with every unscoped buffer at its launch contents, left with the folded weight
    in place. Its four arrays are split out of the unscoped buffers at entry and put back at exit; the generator
    register goes into the region's invariant and comes back; the kernel has no semaphore of its own and owes nothing. -/
def foldSeg : RegionSeg (pcfgs (F := F)) Gen.adm (pdats m) () defs₀ noVar noPairs noLevel 0 where
  win := launch0.win.to₀
  block_pos := launch0.block_pos
  stage_whole := launch0.stage_whole
  K := PEmpty
  osem k := k.elim
  ho := Pipeline.OwnSemFacts.none _
  hbody c := (Fold.obligation (atLaunch m) c).loose
  hwaits := Pipeline.hwaits_of_owed_zero _ _ _ _ noPairs noLevel 0 fun _ _ => rfl
  pre c := iprop(StableHlo.held (c : Thread nD τ) (Pipeline.ucRefs τ sig) (Gen.V0 m c) ∗ side c)
  post c := iprop(StableHlo.held (c : Thread nD τ) (Pipeline.ucRefs τ sig) (Gen.V1 m (outs m) c) ∗ side c)
  X c := iprop(∃ r, prngReg c r)
  Y c := iprop(∃ r, prngReg c r)
  Z c := Pipeline.unscopedRest (Ix := Unit) (Name := ℕ) (U := UR sig nD τ) (Lvl := ℕ) spec0 c (atLaunch m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atLaunch m c) fun _ => rfl
    rw [Pipeline.unscopedBufs_held] at hsplit
    iintro ⟨⟨Hbufs, Hreg, Hdebt⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atLaunch m c) (fun b => Gen.V1 m (outs m) c b) ((pdats m 0 c).arrAt · cfg0.N) (fold_exit m c) (fold_rest m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- The blocked-product region: entered at `midVal`, left with the product in place. The invariant takes the scoped
    buffers (the accumulator among them, at anything) and the generator register in, and gives them back. -/
def accSeg : RegionSeg (pcfgs (F := F)) Gen.adm (pdats m) () defs₀ noVar noPairs noLevel 1 where
  win := launch1.win.to₀
  block_pos := launch1.block_pos
  stage_whole := launch1.stage_whole
  K := PEmpty
  osem k := k.elim
  ho := Pipeline.OwnSemFacts.none _
  hbody c := (Acc.obligation (atMid m) c).loose
  hwaits := Pipeline.hwaits_of_owed_zero _ _ _ _ noPairs noLevel 1 fun _ _ => rfl
  pre c := iprop(StableHlo.held (c : Thread nD τ) (Pipeline.ucRefs τ sig) (midVal m c) ∗ side c)
  post c := iprop(StableHlo.held (c : Thread nD τ) (Pipeline.ucRefs τ sig) (Gen.V3 m (outs m) c) ∗ side c)
  X c := iprop(∃ r, prngReg c r)
  Y c := iprop(∃ r, prngReg c r)
  Z c := Pipeline.unscopedRest (Ix := Unit) (Name := ℕ) (U := UR sig nD τ) (Lvl := ℕ) spec1 c (atMid m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atMid m c) fun _ => rfl
    rw [Pipeline.unscopedBufs_held] at hsplit
    iintro ⟨⟨Hbufs, Hreg, Hdebt⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    rw [show (pdats m 1 c).Φ 0 = Acc.inv (atMid m) c 0 from rfl]
    iintro ⟨Hreg, -, Hscoped⟩
    iapply (Acc.inv_first (atMid m) c)
    unfold Pipeline.ΦA
    isplitl [Hscoped]; · iexact Hscoped
    iexact Hreg
  hout c := by
    rw [Pipeline.ownSems0_none, show (pdats m 1 c).Φ (Fin.last _) = Acc.inv (atMid m) c (Fin.last cfg1.N) from rfl]
    refine (Acc.inv_last (atMid m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atMid m c) (fun b => Gen.V3 m (outs m) c b) ((pdats m 1 c).arrAt · cfg1.N) (acc_exit m c) (acc_rest m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

/-! ## The launch -/

/-- The ghost element the launch starts from: the pipelines' staging cells and duty tokens. -/
abbrev launchElt : UR sig nD τ := initOf (Pipeline.cells cfgs cellOf_inj) (Pipeline.launchToks cfgs cellOf_inj)

theorem launch_ghost : (ownU (launchElt) : sProp 𝕄)
    ⊢ |={Set.univ}=> iprop(BI.own (emb₁ (launchElt)) ∗ bigSep Finset.univ fun _ : Dev nD => (BI.emp : sProp 𝕄)) := by
  iintro Hu; imodintro
  isplitl [Hu]
  · iapply (show (ownU (launchElt) : sProp 𝕄) ⊢ BI.own (emb₁ (launchElt)) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes the riding state: the generator register as seeded,
    nothing owed. -/
theorem side_at_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => side (F := F) c) : sProp 𝕄) := by
  refine Pipeline.initEach noPairs noLevel fun c => ?_
  iintro ⟨⟨-, Hdebt, -, Hreg, -⟩, -⟩
  imodintro
  isplitl [Hreg]; · iexists _; iexact Hreg
  iexists ∅; iexact Hdebt

/-! ## The frame, and the run with every buffer named -/

set_option backward.isDefEq.respectTransparency.types false in
/-- The frame claim, at any instance: the generated conditional frame, given the two region records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond (F := F) m emb₁ () noVar noPairs noLevel (fun _ _ => rfl) ρ (outs m) (pdats m) 0 (fun _ => iprop(emp)) launchElt
    launch_ghost (fun _ c => side c) (side_at_launch ρ) (fun c => by iintro ⟨-, H⟩; iexact H)
    (foldSeg m) (fun _ => .rfl) (fun _ => .rfl) (accSeg m) (fun c => by rw [V2_eq]; exact .rfl) (fun _ => .rfl)

/-- An unscoped TensorCore reference is among those a segment boundary holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The same run read at EVERY unscoped buffer: each ends at the last generated valuation `V4` (the launch contents,
    the folded weight, the first host stretch, the product, the second host stretch). -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ noVar noPairs noLevel m ρ main
    (Gen.segs m (outs m) noVar noPairs noLevel (fun _ c => side c) () (pdats m) (foldSeg m) (accSeg m))
    (fun c Q => by
      rewrite [main_chain c, Seg.run_eq_chain,
        show (Gen.segs m (outs m) noVar noPairs noLevel (fun _ c => side c) () (pdats m) (foldSeg m) (accSeg m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => iprop(emp)) launchElt launch_ghost
    (T₀ := fun c => iprop(StableHlo.held (c : Thread nD τ) (Pipeline.ucRefs τ sig) (Gen.V0 m c) ∗ side c))
    (Tₙ := fun c => StableHlo.held (c : Thread nD τ) (Pipeline.ucRefs τ sig) (Gen.V4 m (outs m) c))
    (hch := fun c => ⟨.rfl, .rfl,
      (by show iprop(StableHlo.held (c : Thread nD τ) (Pipeline.ucRefs τ sig) (Gen.V2 m (outs m) c) ∗ side c) ⊢ _
          rw [V2_eq]; exact .rfl),
      .rfl, sep_mono .rfl (by iintro ⟨-, H⟩; iexact H)⟩)
    (hinit := ?_) (QY := fun c s => ∀ b ∈ Pipeline.ucRefs τ sig, s.mem (((c : Thread nD τ)).1, b) = Gen.V4 m (outs m) c b)
    (hfin := fun c s' => ?_) (hQ := fun _ h => h)
  · refine Pipeline.initEach noPairs noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hbufs, -, Hdebt, -, Hreg, -⟩, -⟩
    imodintro
    isplitl [Hbufs]; · iexact Hbufs
    isplitl [Hreg]; · iexists _; iexact Hreg
    iexists ∅; iexact Hdebt
  · iintro ⟨Hbufs, HSI⟩
    unfold StableHlo.held
    imodintro
    iapply (pointsTo_read_all (Pipeline.ucRefs τ sig) (fun b => (((c : Thread nD τ)).1, b)) (Gen.V4 m (outs m) c) s')
    isplitl [Hbufs] <;> iassumption

/-- The run as the value claim reads it: the result buffer at the last valuation, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v4) = Gen.V4 m (outs m) c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v4 (by decide)),
      (h c _ (mem_uc main_arg0 (by decide))).trans (Gen.V4_main_arg0 m (outs m) c),
      (h c _ (mem_uc main_arg1 (by decide))).trans (Gen.V4_main_arg1 m (outs m) c),
      (h c _ (mem_uc main_arg2 (by decide))).trans (Gen.V4_main_arg2 m (outs m) c),
      (h c _ (mem_uc main_arg3 (by decide))).trans (Gen.V4_main_arg3 m (outs m) c)⟩) (run_all m ρ)

end Cert.Kernel.Whole

end
-- ==== Proof.Ideal.FoldRegion.lean ====
/-
  The first kernel region: folding the low-rank update into the weight, a tile of 256 rows at a time.
  At grid point t the body reads the weight tile W[256t .. 256t+255, :], the matching 256 rows of B and the
  whole of A, and stores  W_tile + 2 · (B_tile · A)  (narrowed to the output's format) over its whole output
  tile. Nothing is carried from one point to the next, so the region's proof data name, per point, each input
  tile as the body found it and the output tile as that one expression of the three input tiles.
-/
import proofs.«123762_j39341900431501_1_alg».proof.Proof.Gen.KernelIdeal.Launch
import proofs.«123762_j39341900431501_1_alg».proof.Proof.Gen.KernelIdeal.Skeleton
import proofs.«123762_j39341900431501_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The contents of the TensorCore's buffers when the region is entered.
variable (V : (c : Dev nD) → (b : Ref sig .tc) → Buf (Elt F) ((c : Thread nD τ).loc b))

/-- The tile of window `w`'s array that grid point `t` addresses, read off the entry contents. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A rectangle at offsets `![0, 0]` starts at the origin. -/
theorem origin2 : (![0, 0] : Fin 2 → Nat) = fun _ => 0 := by
  funext a; fin_cases a <;> rfl

set_option maxHeartbeats 1000000 in
/-- One run of the body on whole staging buffers holding a weight tile `w`, a B tile `b` and A `a`: the inputs
    are left as found and the output buffer, whatever it held, ends at `k0_pay1 b a w` — the one store covers the
    whole tile, so what is read back is its payload, and each load through the whole-tile rectangle reads the
    buffer's contents. -/
theorem body_run (c : Dev nD) (E : Set ℕ) (i : grid0.Coords)
    (arg1 : Memref sig .tc .vmem S256x4096 .f32) (harg1 : arg1.IsWhole) (arg2 : Memref sig .tc .vmem S256x16 .f32) (harg2 : arg2.IsWhole)
    (arg3 : Memref sig .tc .vmem S16x4096 .f32) (harg3 : arg3.IsWhole) (arg4 : Memref sig .tc .vmem S256x4096 .bf16) (harg4 : arg4.IsWhole)
    (w : Vec F S256x4096 .f32) (b : Vec F S256x16 .f32) (a : Vec F S16x4096 .f32) (K : PUnit → sProp 𝕄) :
    iprop(owns (c : Thread nD τ) arg1 fullShare w ∗ owns (c : Thread nD τ) arg2 fullShare b ∗ owns (c : Thread nD τ) arg3 fullShare a
        ∗ (∃ d, owns (c : Thread nD τ) arg4 fullShare d)
        ∗ (iprop(owns (c : Thread nD τ) arg1 fullShare w ∗ owns (c : Thread nD τ) arg2 fullShare b ∗ owns (c : Thread nD τ) arg3 fullShare a
            ∗ owns (c : Thread nD τ) arg4 fullShare (k0_pay1 b a w)) -∗ K ⟨⟩))
      ⊢ wp frame (wpE (defs₀ (F := F)) Variants.none c none) E (cc0__eff_weight_kernel i arg1 harg1 arg2 harg2 arg3 harg3 arg4 harg4) K := by
  simp only [cc0__eff_weight_kernel_eq_skeleton]; unfold cc0__eff_weight_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero origin2 inb_S256x4096_S256x4096_0_0 y⟩),
    View.canon_unit_zero origin2]
  simp only [View.readAt_eq_ld, View.ld_unit_zero (S := S256x16) origin2, View.ld_unit_zero (S := S16x4096) origin2,
    View.ld_unit_zero (S := S256x4096) origin2]

/-- The region's proof data on core `c`: the arrays as entered; after the body at point `t` each input buffer
    still at its tile and the output buffer at `k0_pay1` of the three input tiles; between points only what the
    kernel never touches (the other region's scoped buffers, the generator register); nothing owed. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => k0_pay1 (tile V c 1 t) (tile V c 2 t) (tile V c 0 t)
  Φ _ := Pipeline.ΦA spec0 c
  q _ := fullShare
  owed _ := 0

theorem dat_A (c : Dev nD) (w : Fin cfg0.W) : (dat V c).A w = V c (Pipeline.arrRef spec0 w) := by
  dsimp only [dat]
theorem dat_after0 (c : Dev nD) (t : Fin cfg0.N) : (dat V c).after 0 t = tile V c 0 t := by dsimp only [dat]
theorem dat_after1 (c : Dev nD) (t : Fin cfg0.N) : (dat V c).after 1 t = tile V c 1 t := by dsimp only [dat]
theorem dat_after2 (c : Dev nD) (t : Fin cfg0.N) : (dat V c).after 2 t = tile V c 2 t := by dsimp only [dat]
theorem dat_after3 (c : Dev nD) (t : Fin cfg0.N) :
    (dat V c).after 3 t = k0_pay1 (tile V c 1 t) (tile V c 2 t) (tile V c 0 t) := by dsimp only [dat]

/-- An input's staging buffer holds the point's tile whenever the body runs: just fetched, or (A, fetched once)
    kept from the point before, where the body left it in place and the tile addressed has not moved. -/
theorem found0 (c : Dev nD) (t : Fin cfg0.N) (d) : (dat V c).before 0 t d = tile V c 0 t :=
  ((dat V c).before_in_eq_fetched 0 rfl (fun _ => rfl) (fun _ _ _ => rfl)
    (fun t => by rw [dat_after0]; unfold Dat.blockOf tile; rw [dat_A]; try rfl) t d).trans
    (by unfold Dat.fetched Dat.blockOf tile; rw [dat_A]; try rfl)
theorem found1 (c : Dev nD) (t : Fin cfg0.N) (d) : (dat V c).before 1 t d = tile V c 1 t :=
  ((dat V c).before_in_eq_fetched 1 rfl (fun _ => rfl) (fun _ _ _ => rfl)
    (fun t => by rw [dat_after1]; unfold Dat.blockOf tile; rw [dat_A]; try rfl) t d).trans
    (by unfold Dat.fetched Dat.blockOf tile; rw [dat_A]; try rfl)
theorem found2 (c : Dev nD) (t : Fin cfg0.N) (d) : (dat V c).before 2 t d = tile V c 2 t :=
  ((dat V c).before_in_eq_fetched 2 rfl (fun _ => rfl) (fun _ _ _ => rfl)
    (fun t => by rw [dat_after2]; unfold Dat.blockOf tile; rw [dat_A]; try rfl) t d).trans
    (by unfold Dat.fetched Dat.blockOf tile; rw [dat_A]; try rfl)

/-- The body obligation of the pipeline rule, at every point: the three inputs are found at their tiles, so
    `body_run` applies; the invariant and the (empty) debt pass through untouched. -/
theorem obligation (c : Dev nD) : BodyObligation (dat (F := F) V c) (defs₀ (F := F)) Variants.none () Set.univ := fun t => by
  rw [bigSep_W0, bigSep_W0]
  simp only [found0, found1, found2]
  rw [show (dat V c).Φ t.succ = (dat V c).Φ t.castSucc from rfl,
    show (dat V c).owesAt () t.succ = (dat V c).owesAt () t.castSucc from rfl,
    dat_after0, dat_after1, dat_after2, dat_after3]
  iintro ⟨HΦ, Ho, ⟨%d0, H0⟩, ⟨%d1, H1⟩, ⟨%d2, H2⟩, ⟨%d3, H3⟩⟩
  have hb := body_run (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (tile V c 0 t) (tile V c 1 t) (tile V c 2 t)
  iapply hb
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Fold

end
-- ==== Proof.Ideal.AccRegion.lean ====
/-
  The second kernel region: the product of the activations with the folded weight, one 1024 × 1024 output tile
  at a time, the contraction axis cut in two halves of 2048. Grid point t = 2·q + k works on output tile q and
  half k. At k = 0 the body clears its accumulator and adds the first half's product  a₀ · b₀ᵀ ; at k = 1 it adds
  the second half's product to what the accumulator holds and copies the sum to the output tile. The accumulator
  is a scratch buffer the pipeline does not stage, so the region's invariant carries it: before a point whose
  predecessor was a first half, the scratch holds that half's partial product.
-/
import proofs.«123762_j39341900431501_1_alg».proof.Proof.Gen.KernelIdeal.Launch
import proofs.«123762_j39341900431501_1_alg».proof.Proof.Gen.KernelIdeal.Skeleton
import proofs.«123762_j39341900431501_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The contents of the TensorCore's buffers when the region is entered.
variable (V : (c : Dev nD) → (b : Ref sig .tc) → Buf (Elt F) ((c : Thread nD τ).loc b))

/-- The tile of window `w`'s array that grid point `t` addresses, read off the entry contents. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A rectangle at offsets `![0, 0]` starts at the origin. -/
theorem origin2 : (![0, 0] : Fin 2 → Nat) = fun _ => 0 := by
  funext a; fin_cases a <;> rfl

/-- The accumulator, a whole scoped buffer of the kernel's own. -/
abbrev scr : Memref sig .tc .vmem S1024x1024 .f32 := Memref.whole cc1_scratch0

/-! ## The two branches, by the position on the contraction axis -/

/-- The body's first test: the point is a first half. -/
abbrev atFirst (i : grid1.Coords) : Prop :=
  (Scalar.cmpi .ne (Scalar.extui (Scalar.cmpi .eq (BitVec.ofNat 32 (i 2).val) 0#32)) 0#32) = 1#1
/-- The body's second test: the point is a second (and last) half. -/
abbrev atLast (i : grid1.Coords) : Prop := k1_cond2 i = 1#1
theorem atFirst_iff : ∀ t : Fin cfg1.N, atFirst (grid1.coords t) ↔ t.val % 2 = 0 :=
  (by decide +kernel : ∀ t : Fin grid1.N, atFirst (grid1.coords t) ↔ t.val % 2 = 0)
theorem atLast_iff : ∀ t : Fin cfg1.N, atLast (grid1.coords t) ↔ t.val % 2 = 1 :=
  (by decide +kernel : ∀ t : Fin grid1.N, atLast (grid1.coords t) ↔ t.val % 2 = 1)

/-- At a first half the output window is idle and is not written back; at a second half it is live. -/
theorem out_idle_even : ∀ t : Fin cfg1.N, t.val % 2 = 0 → idle1 2 (grid1.coords t) = true :=
  (by decide +kernel : ∀ t : Fin grid1.N, t.val % 2 = 0 → idle1 2 (grid1.coords t) = true)
theorem out_kept_even : ∀ t : Fin cfg1.N, t.val % 2 = 0 → (cfg1.win 2).flush t = false :=
  (by decide +kernel : ∀ t : Fin grid1.N, t.val % 2 = 0 → win1_2.flush t = false)
theorem out_live_odd : ∀ t : Fin cfg1.N, t.val % 2 = 1 → idle1 2 (grid1.coords t) = false :=
  (by decide +kernel : ∀ t : Fin grid1.N, t.val % 2 = 1 → idle1 2 (grid1.coords t) = false)

set_option maxHeartbeats 1000000 in
/-- A first half, on whole buffers holding an activation tile `a` and a weight tile `b`: the accumulator, whatever it
    held, is cleared and then holds `k1_pay2 a b k1_pay1` (zero plus the product); the inputs and the output buffer are
    left as found. The clearing store covers the accumulator, so the load after it reads the zero payload, and the
    last store covers it again. -/
theorem first_run (c : Dev nD) (E : Set ℕ) (i : grid1.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (h0 : atFirst i) (h1 : ¬ atLast i)
    (a b : Vec F S1024x2048 .bf16) (o : Vec F S1024x1024 .f32) (K : PUnit → sProp 𝕄) :
    iprop(owns (c : Thread nD τ) arg3 fullShare a ∗ owns (c : Thread nD τ) arg4 fullShare b ∗ owns (c : Thread nD τ) arg5 fullShare o
        ∗ (∃ d, owns (c : Thread nD τ) arg6 fullShare d)
        ∗ (iprop(owns (c : Thread nD τ) arg3 fullShare a ∗ owns (c : Thread nD τ) arg4 fullShare b ∗ owns (c : Thread nD τ) arg5 fullShare o
            ∗ owns (c : Thread nD τ) arg6 fullShare (k1_pay2 a b (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, Hk⟩
  subst hf3; subst hf4; subst hf5
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero origin2 inb_S1024x1024_S1024x1024_0_0 y⟩),
    View.canon_cons_unit_zero origin2]
  simp only [View.readAt_eq_ld, View.readCov_unit_zero (S := S1024x1024) _ origin2, View.ld_unit_zero (S := S1024x2048) origin2,
    View.ld_unit_zero (S := S1024x1024) origin2]

set_option maxHeartbeats 1000000 in
/-- A second half, the accumulator holding `s`: it ends at `k1_pay2 a b s` and so does the output buffer, whatever
    that held (the copy reads the accumulator back after the store that covers it). -/
theorem last_run (c : Dev nD) (E : Set ℕ) (i : grid1.Coords)
    (arg3 : Memref sig .tc .vmem S1024x2048 .bf16) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (h0 : ¬ atFirst i) (h1 : atLast i)
    (a b : Vec F S1024x2048 .bf16) (s : Vec F S1024x1024 .f32) (K : PUnit → sProp 𝕄) :
    iprop(owns (c : Thread nD τ) arg3 fullShare a ∗ owns (c : Thread nD τ) arg4 fullShare b ∗ (∃ d, owns (c : Thread nD τ) arg5 fullShare d)
        ∗ owns (c : Thread nD τ) arg6 fullShare s
        ∗ (iprop(owns (c : Thread nD τ) arg3 fullShare a ∗ owns (c : Thread nD τ) arg4 fullShare b ∗ owns (c : Thread nD τ) arg5 fullShare (k1_pay2 a b s)
            ∗ owns (c : Thread nD τ) arg6 fullShare (k1_pay2 a b s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_singleton_self _, View.mem_set_unit_zero origin2 inb_S1024x1024_S1024x1024_0_0 y⟩),
      View.canon_unit_zero origin2]
    simp only [View.readAt_eq_ld, View.readCov_unit_zero (S := S1024x1024) _ origin2, View.ld_unit_zero (S := S1024x2048) origin2,
      View.ld_unit_zero (S := S1024x1024) origin2]
  iexists _; isplitr
  swap; · iexact H6
  ipureintro
  sl_unfold_words
  rw [View.read_writes_eq_canon _ _ _ (fun y => ⟨_, List.mem_singleton_self _, View.mem_set_unit_zero origin2 inb_S1024x1024_S1024x1024_0_0 y⟩),
    View.canon_unit_zero origin2]
  simp only [View.readAt_eq_ld, View.ld_unit_zero (S := S1024x2048) origin2, View.ld_unit_zero (S := S1024x1024) origin2]

/-! ## What the accumulator and the output tile hold -/

/-- The accumulator after the first half at point `t`: zero plus the product of the point's two tiles. -/
def half (c : Dev nD) (t : Fin cfg1.N) : Vec F S1024x1024 .f32 :=
  k1_pay2 (tile V c 0 t) (tile V c 1 t) (k1_pay1 (F := F))

/-- The point before `t` (the first half that a second half `t` completes). -/
def pred (t : Fin cfg1.N) : Fin cfg1.N := ⟨t.val - 1, by have := t.isLt; omega⟩

/-- The output tile after the second half at point `t`: the first half's partial product plus this half's. -/
def full (c : Dev nD) (t : Fin cfg1.N) : Vec F S1024x1024 .f32 :=
  k1_pay2 (tile V c 0 t) (tile V c 1 t) (half V c (pred t))

/-- The invariant before point `t` (`t` up to the number of points): the other region's staging buffers at whatever
    they hold, the generator register at some state, and the accumulator — at the partial product of the point before
    when that point was a first half, at some contents otherwise. -/
def inv (c : Dev nD) (t : Fin (cfg1.N + 1)) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ s, owns (c : Thread nD τ) scr fullShare s ∗ ⌜∀ u : Fin cfg1.N, u.val + 1 = t.val → u.val % 2 = 0 → s = half V c u⌝))
    ∗ ∃ r, prngReg c r)

/-- Entering the region: the accumulator at anything is the invariant before the first point. -/
theorem inv_first (c : Dev nD) : (Pipeline.ΦA spec1 c : sProp 𝕄) ⊢ inv V c 0 := by
  unfold Pipeline.ΦA inv; rw [scopedRest1_eq]; simp only [owns_whole]
  iintro ⟨⟨A1, A2, A3, A4, A5, A6, A7, ⟨%f, Hs⟩⟩, Hp⟩
  isplitr [Hp]
  swap; · iexact Hp
  isplitl [A1]; · iexact A1
  isplitl [A2]; · iexact A2
  isplitl [A3]; · iexact A3
  isplitl [A4]; · iexact A4
  isplitl [A5]; · iexact A5
  isplitl [A6]; · iexact A6
  isplitl [A7]; · iexact A7
  iexists f; isplitl [Hs]
  · iexact Hs
  ipureintro; intro u hu; exact absurd hu (by simp)

/-- Leaving it: whatever the accumulator holds is forgotten. -/
theorem inv_last (c : Dev nD) : inv V c (Fin.last cfg1.N) ⊢ (Pipeline.ΦA spec1 c : sProp 𝕄) := by
  unfold Pipeline.ΦA inv; rw [scopedRest1_eq]; simp only [owns_whole]
  iintro ⟨⟨A1, A2, A3, A4, A5, A6, A7, ⟨%s, Hs, -⟩⟩, Hp⟩
  isplitr [Hp]
  swap; · iexact Hp
  isplitl [A1]; · iexact A1
  isplitl [A2]; · iexact A2
  isplitl [A3]; · iexact A3
  isplitl [A4]; · iexact A4
  isplitl [A5]; · iexact A5
  isplitl [A6]; · iexact A6
  isplitl [A7]; · iexact A7
  iexists s; iexact Hs

/-! ## The proof data and the body obligation -/

/-- The region's proof data on core `c`: the arrays as entered; each input buffer left at its tile; the output
    buffer, at a second half, at `full` (at a first half the window is idle and its entry is not consulted);
    the invariant `inv`; nothing owed. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => full V c t
  Φ t := inv V c t
  q _ := fullShare
  owed _ := 0

theorem dat_A (c : Dev nD) (w : Fin cfg1.W) : (dat V c).A w = V c (Pipeline.arrRef spec1 w) := by
  dsimp only [dat]
theorem dat_after0 (c : Dev nD) (t : Fin cfg1.N) : (dat V c).after 0 t = tile V c 0 t := by dsimp only [dat]
theorem dat_after1 (c : Dev nD) (t : Fin cfg1.N) : (dat V c).after 1 t = tile V c 1 t := by dsimp only [dat]
theorem dat_after2 (c : Dev nD) (t : Fin cfg1.N) : (dat V c).after 2 t = full V c t := by dsimp only [dat]
theorem dat_inv (c : Dev nD) (t : Fin (cfg1.N + 1)) : (dat V c).Φ t = inv V c t := by dsimp only [dat]

/-- An input's staging buffer holds the point's tile whenever the body runs (both inputs are fetched at every point). -/
theorem found0 (c : Dev nD) (t : Fin cfg1.N) (d) : (dat V c).before 0 t d = tile V c 0 t :=
  ((dat V c).before_in_eq_fetched 0 rfl (fun _ => rfl) (fun _ _ _ => rfl)
    (fun t => by rw [dat_after0]; unfold Dat.blockOf tile; rw [dat_A]; try rfl) t d).trans
    (by unfold Dat.fetched Dat.blockOf tile; rw [dat_A]; try rfl)
theorem found1 (c : Dev nD) (t : Fin cfg1.N) (d) : (dat V c).before 1 t d = tile V c 1 t :=
  ((dat V c).before_in_eq_fetched 1 rfl (fun _ => rfl) (fun _ _ _ => rfl)
    (fun t => by rw [dat_after1]; unfold Dat.blockOf tile; rw [dat_A]; try rfl) t d).trans
    (by unfold Dat.fetched Dat.blockOf tile; rw [dat_A]; try rfl)

set_option maxHeartbeats 2000000 in
/-- The body obligation of the pipeline rule, at every point, by the point's parity: a first half runs from any
    accumulator and leaves the partial product there, handing the idle output buffer back as found; a second half finds
    the partial product of the point before (the invariant says so) and leaves the full tile in the output buffer. -/
theorem obligation (c : Dev nD) : BodyObligation (dat (F := F) V c) (defs₀ (F := F)) Variants.none () Set.univ := fun t => by
  rw [bigSep_W1, bigSep_W1]
  simp only [found0, found1]
  rw [show (dat V c).owesAt () t.succ = (dat V c).owesAt () t.castSucc from rfl, dat_after0, dat_after1, dat_inv, dat_inv]
  rcases Nat.mod_two_eq_zero_or_one t.val with he | ho
  · simp only [out_idle_even t he, out_kept_even t he]
    unfold inv
    iintro ⟨⟨⟨A1, A2, A3, A4, A5, A6, A7, ⟨%s, Hs, -⟩⟩, Hp⟩, Ho, ⟨%d0, H0⟩, ⟨%d1, H1⟩, ⟨%d2, H2⟩⟩
    have hb := first_run (F := F) c Set.univ (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (Memref.whole cc1_scratch0) (Memref.isWhole_whole _) ((atFirst_iff t).mpr he) (fun h => by have := (atLast_iff t).mp h; omega)
      (tile V c 0 t) (tile V c 1 t) ((dat V c).before 2 t d2)
    iapply hb
    isplitl [H0]; · iexact H0
    isplitl [H1]; · iexact H1
    isplitl [H2]; · iexact H2
    isplitl [Hs]; · iexists _; iexact Hs
    iintro ⟨H0, H1, H2, Hs⟩
    isplitr [Ho H0 H1 H2]
    · isplitr [Hp]
      swap; · iexact Hp
      isplitl [A1]; · iexact A1
      isplitl [A2]; · iexact A2
      isplitl [A3]; · iexact A3
      isplitl [A4]; · iexact A4
      isplitl [A5]; · iexact A5
      isplitl [A6]; · iexact A6
      isplitl [A7]; · iexact A7
      iexists _; isplitl [Hs]; · iexact Hs
      ipureintro; intro u hu _
      have : u = t := Fin.ext (by simpa using hu)
      rw [this]; rfl
    isplitl [Ho]; · iexact Ho
    isplitl [H0]; · iexact H0
    isplitl [H1]; · iexact H1
    iexists _; iexact H2
  · simp only [out_live_odd t ho]
    rw [dat_after2]
    unfold inv
    iintro ⟨⟨⟨A1, A2, A3, A4, A5, A6, A7, ⟨%s, Hs, %hs⟩⟩, Hp⟩, Ho, ⟨%d0, H0⟩, ⟨%d1, H1⟩, ⟨%d2, H2⟩⟩
    have hs' : s = half V c (pred t) := hs (pred t) (by simp only [pred, Fin.coe_castSucc]; omega) (by simp only [pred]; omega)
    subst hs'
    have hb := last_run (F := F) c Set.univ (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (Memref.whole cc1_scratch0) (Memref.isWhole_whole _) (fun h => by have := (atFirst_iff t).mp h; omega) ((atLast_iff t).mpr ho)
      (tile V c 0 t) (tile V c 1 t) (half V c (pred t))
    iapply hb
    isplitl [H0]; · iexact H0
    isplitl [H1]; · iexact H1
    isplitl [H2]; · iexists _; iexact H2
    isplitl [Hs]; · iexact Hs
    iintro ⟨H0, H1, H2, Hs⟩
    isplitr [Ho H0 H1 H2]
    · isplitr [Hp]
      swap; · iexact Hp
      isplitl [A1]; · iexact A1
      isplitl [A2]; · iexact A2
      isplitl [A3]; · iexact A3
      isplitl [A4]; · iexact A4
      isplitl [A5]; · iexact A5
      isplitl [A6]; · iexact A6
      isplitl [A7]; · iexact A7
      iexists _; isplitl [Hs]; · iexact Hs
      ipureintro; intro u hu hu2
      exfalso; simp only [Fin.val_succ] at hu; omega
    isplitl [Ho]; · iexact Ho
    isplitl [H0]; · iexact H0
    isplitl [H1]; · iexact H1
    iexact H2

end Cert.KernelIdeal.Acc

end
-- ==== Proof.Ideal.Segments.lean ====
/-
  The whole program as the pipeline library's list of segments: the weight-folding region, the host stretch that
  reads the activations as 8192 rows, the blocked-product region, the host stretch that reads the result back as
  [4, 2048, 4096]. Between two segments a core holds every unscoped buffer whole at a named valuation; the two regions
  change exactly one buffer each (the folded weight, the product), at the contents their write-backs leave.
-/
import proofs.«123762_j39341900431501_1_alg».proof.Proof.Ideal.FoldRegion
import proofs.«123762_j39341900431501_1_alg».proof.Proof.Ideal.AccRegion
import proofs.«123762_j39341900431501_1_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RegionSeg Seg HostSeg)

variable (m : (ℓ : Loc nD τ sig) → Buf (Elt F) ℓ)

/-! ## The contents at the boundaries -/

/-- The launch contents, read at the TensorCore's references. -/
abbrev atLaunch (c : Dev nD) (b : Ref sig .tc) : Buf (Elt F) ((c : Thread nD τ).loc b) := Gen.V0 m c b

/-- What the first region leaves in the folded-weight buffer: its write-backs, folded over the grid. -/
def foldOut (c : Dev nD) : Buf (Elt F) ((c : Thread nD τ).loc main_v0) := (Fold.dat (atLaunch m) c).arrAt 3 cfg0.N

/-- The buffers when the second region is entered: the launch contents with the folded weight in place, then the
    host stretch between the regions. -/
def midVal (c : Dev nD) : Valuation τ sig (Elt F) :=
  StableHlo.after hostOps1 (Function.update (Gen.V0 m c) main_v0 (foldOut m c))
abbrev atMid (c : Dev nD) (b : Ref sig .tc) : Buf (Elt F) ((c : Thread nD τ).loc b) := midVal m c b

/-- What the second region leaves in the product buffer. -/
def accOut (c : Dev nD) : Buf (Elt F) ((c : Thread nD τ).loc main_v3) := (Acc.dat (atMid m) c).arrAt 2 cfg1.N

/-- The regions' results as the generated valuations read them: the folded weight, the product, and elsewhere the
    launch contents (never read). -/
def outs : Gen.Outs (F := F) := fun _ r c =>
  Function.update (Function.update (fun b : Ref sig .tc => atLaunch m c b) main_v0 (foldOut m c)) main_v3 (accOut m c) r

theorem outs_fold (c : Dev nD) : outs m 1 main_v0 c = foldOut m c := by
  unfold outs; rw [Function.update_of_ne (by decide), Function.update_self]
theorem outs_acc (c : Dev nD) : outs m 3 main_v3 c = accOut m c := by
  unfold outs; rw [Function.update_self]

/-- The generated valuation before the second region is `midVal`. -/
theorem V2_eq (c : Dev nD) : Gen.V2 m (outs m) c = midVal m c := by
  show StableHlo.after hostOps1 (Function.update (Gen.V0 m c) main_v0 (outs m 1 main_v0 c)) = _
  rw [outs_fold]; rfl

/-! ## The proof data and the state that rides along -/

/-- Each pipeline's proof data at its region's entry contents. -/
def pdats : (p : Fin 2) → (c : Dev nD) → Dat τ (Elt F) Unit ℕ (UR sig nD τ) ℕ (cfgs p) c
  | ⟨0, _⟩ => fun c => Fold.dat (atLaunch m) c
  | ⟨1, _⟩ => fun c => Acc.dat (atMid m) c

abbrev noVar : Variants := Variants.none
abbrev noPairs : GSem nD τ sig → Finset Unit := fun _ => ∅
abbrev noLevel : GSem nD τ sig → Unit → ℕ := fun _ _ => 0

/-- Beside the buffers every segment carries the generator register at some state and the core's debt, which is nothing. -/
abbrev side (c : Dev nD) : sProp 𝕄 :=
  iprop((∃ r, prngReg c r) ∗ ∃ W, owes (c : Thread nD τ) (0 : CellTallies nD τ sig Unit) W)

/-! ## What each region leaves, read at the generated valuations -/

/-- After the first region every one of its arrays holds what the generated valuation `V1` says: the three inputs
    their launch contents (an input array is never written), the result the folded weight. -/
theorem fold_exit (c : Dev nD) : ∀ w : Fin cfg0.W, (pdats m 0 c).arrAt w cfg0.N = Gen.V1 m (outs m) c (Pipeline.arrRef spec0 w)
  | ⟨0, _⟩ => ((pdats m 0 c).arrAt_in 0 rfl _).trans (Gen.V1_of m (outs m) c main_arg1 (by decide)).symm
  | ⟨1, _⟩ => ((pdats m 0 c).arrAt_in 1 rfl _).trans (Gen.V1_of m (outs m) c main_arg3 (by decide)).symm
  | ⟨2, _⟩ => ((pdats m 0 c).arrAt_in 2 rfl _).trans (Gen.V1_of m (outs m) c main_arg2 (by decide)).symm
  | ⟨3, _⟩ => by
    show foldOut m c = Function.update (Gen.V0 m c) main_v0 (outs m 1 main_v0 c) main_v0
    rw [Function.update_self, outs_fold]

/-- Off the first region's arrays `V1` is the launch valuation. -/
theorem fold_rest (c : Dev nD) (b : Ref sig .tc) (hb : b ∉ Finset.univ.image (Pipeline.arrRef spec0)) :
    Gen.V1 m (outs m) c b = atLaunch m c b :=
  Gen.V1_of m (outs m) c b fun h => hb (by
    rw [List.mem_singleton.mp h]; exact Finset.mem_image.mpr ⟨3, Finset.mem_univ _, rfl⟩)

/-- After the second region: the two operands as entered, the result the blocked product. -/
theorem acc_exit (c : Dev nD) : ∀ w : Fin cfg1.W, (pdats m 1 c).arrAt w cfg1.N = Gen.V3 m (outs m) c (Pipeline.arrRef spec1 w)
  | ⟨0, _⟩ => ((pdats m 1 c).arrAt_in 0 rfl _).trans
      ((Gen.V3_of m (outs m) c main_v2 (by decide)).trans (congrFun (V2_eq m c) _)).symm
  | ⟨1, _⟩ => ((pdats m 1 c).arrAt_in 1 rfl _).trans
      ((Gen.V3_of m (outs m) c main_v0 (by decide)).trans (congrFun (V2_eq m c) _)).symm
  | ⟨2, _⟩ => by
    show accOut m c = Function.update (Gen.V2 m (outs m) c) main_v3 (outs m 3 main_v3 c) main_v3
    rw [Function.update_self, outs_acc]

/-- Off the second region's arrays `V3` is the valuation the region was entered at. -/
theorem acc_rest (c : Dev nD) (b : Ref sig .tc) (hb : b ∉ Finset.univ.image (Pipeline.arrRef spec1)) :
    Gen.V3 m (outs m) c b = atMid m c b :=
  (Gen.V3_of m (outs m) c b fun h => hb (by
    rw [List.mem_singleton.mp h]; exact Finset.mem_image.mpr ⟨2, Finset.mem_univ _, rfl⟩)).trans (congrFun (V2_eq m c) _)

/-! ## The regions as segments -/

set_option backward.isDefEq.respectTransparency.types false in
/-- The weight-folding region: entered with every unscoped buffer at its launch contents, left with the folded weight
    in place. Its four arrays are split out of the unscoped buffers at entry and put back at exit; the generator
    register goes into the region's invariant and comes back; the kernel has no semaphore of its own and owes nothing. -/
def foldSeg : RegionSeg (pcfgs (F := F)) Gen.adm (pdats m) () defs₀ noVar noPairs noLevel 0 where
  win := launch0.win.to₀
  block_pos := launch0.block_pos
  stage_whole := launch0.stage_whole
  K := PEmpty
  osem k := k.elim
  ho := Pipeline.OwnSemFacts.none _
  hbody c := (Fold.obligation (atLaunch m) c).loose
  hwaits := Pipeline.hwaits_of_owed_zero _ _ _ _ noPairs noLevel 0 fun _ _ => rfl
  pre c := iprop(StableHlo.held (c : Thread nD τ) (Pipeline.ucRefs τ sig) (Gen.V0 m c) ∗ side c)
  post c := iprop(StableHlo.held (c : Thread nD τ) (Pipeline.ucRefs τ sig) (Gen.V1 m (outs m) c) ∗ side c)
  X c := iprop(∃ r, prngReg c r)
  Y c := iprop(∃ r, prngReg c r)
  Z c := Pipeline.unscopedRest (Ix := Unit) (Name := ℕ) (U := UR sig nD τ) (Lvl := ℕ) spec0 c (atLaunch m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atLaunch m c) fun _ => rfl
    rw [Pipeline.unscopedBufs_held] at hsplit
    iintro ⟨⟨Hbufs, Hreg, Hdebt⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atLaunch m c) (fun b => Gen.V1 m (outs m) c b) ((pdats m 0 c).arrAt · cfg0.N) (fold_exit m c) (fold_rest m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- The blocked-product region: entered at `midVal`, left with the product in place. The invariant takes the scoped
    buffers (the accumulator among them, at anything) and the generator register in, and gives them back. -/
def accSeg : RegionSeg (pcfgs (F := F)) Gen.adm (pdats m) () defs₀ noVar noPairs noLevel 1 where
  win := launch1.win.to₀
  block_pos := launch1.block_pos
  stage_whole := launch1.stage_whole
  K := PEmpty
  osem k := k.elim
  ho := Pipeline.OwnSemFacts.none _
  hbody c := (Acc.obligation (atMid m) c).loose
  hwaits := Pipeline.hwaits_of_owed_zero _ _ _ _ noPairs noLevel 1 fun _ _ => rfl
  pre c := iprop(StableHlo.held (c : Thread nD τ) (Pipeline.ucRefs τ sig) (midVal m c) ∗ side c)
  post c := iprop(StableHlo.held (c : Thread nD τ) (Pipeline.ucRefs τ sig) (Gen.V3 m (outs m) c) ∗ side c)
  X c := iprop(∃ r, prngReg c r)
  Y c := iprop(∃ r, prngReg c r)
  Z c := Pipeline.unscopedRest (Ix := Unit) (Name := ℕ) (U := UR sig nD τ) (Lvl := ℕ) spec1 c (atMid m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atMid m c) fun _ => rfl
    rw [Pipeline.unscopedBufs_held] at hsplit
    iintro ⟨⟨Hbufs, Hreg, Hdebt⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    rw [show (pdats m 1 c).Φ 0 = Acc.inv (atMid m) c 0 from rfl]
    iintro ⟨Hreg, -, Hscoped⟩
    iapply (Acc.inv_first (atMid m) c)
    unfold Pipeline.ΦA
    isplitl [Hscoped]; · iexact Hscoped
    iexact Hreg
  hout c := by
    rw [Pipeline.ownSems0_none, show (pdats m 1 c).Φ (Fin.last _) = Acc.inv (atMid m) c (Fin.last cfg1.N) from rfl]
    refine (Acc.inv_last (atMid m) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atMid m c) (fun b => Gen.V3 m (outs m) c b) ((pdats m 1 c).arrAt · cfg1.N) (acc_exit m c) (acc_rest m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

/-! ## The launch -/

/-- The ghost element the launch starts from: the pipelines' staging cells and duty tokens. -/
abbrev launchElt : UR sig nD τ := initOf (Pipeline.cells cfgs cellOf_inj) (Pipeline.launchToks cfgs cellOf_inj)

theorem launch_ghost : (ownU (launchElt) : sProp 𝕄)
    ⊢ |={Set.univ}=> iprop(BI.own (emb₁ (launchElt)) ∗ bigSep Finset.univ fun _ : Dev nD => (BI.emp : sProp 𝕄)) := by
  iintro Hu; imodintro
  isplitl [Hu]
  · iapply (show (ownU (launchElt) : sProp 𝕄) ⊢ BI.own (emb₁ (launchElt)) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes the riding state: the generator register as seeded,
    nothing owed. -/
theorem side_at_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => side (F := F) c) : sProp 𝕄) := by
  refine Pipeline.initEach noPairs noLevel fun c => ?_
  iintro ⟨⟨-, Hdebt, -, Hreg, -⟩, -⟩
  imodintro
  isplitl [Hreg]; · iexists _; iexact Hreg
  iexists ∅; iexact Hdebt

/-! ## The frame, and the run with every buffer named -/

set_option backward.isDefEq.respectTransparency.types false in
/-- The frame claim, at any instance: the generated conditional frame, given the two region records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond (F := F) m emb₁ () noVar noPairs noLevel (fun _ _ => rfl) ρ (outs m) (pdats m) 0 (fun _ => iprop(emp)) launchElt
    launch_ghost (fun _ c => side c) (side_at_launch ρ) (fun c => by iintro ⟨-, H⟩; iexact H)
    (foldSeg m) (fun _ => .rfl) (fun _ => .rfl) (accSeg m) (fun c => by rw [V2_eq]; exact .rfl) (fun _ => .rfl)

/-- An unscoped TensorCore reference is among those a segment boundary holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The same run read at EVERY unscoped buffer: each ends at the last generated valuation `V4` (the launch contents,
    the folded weight, the first host stretch, the product, the second host stretch). -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V4 m (outs m) c b) := by
  refine Pipeline.θ_run_regions_kit_dev (pcfgs (F := F)) Gen.adm (pdats m) () cellOf_inj emb₁ defs₀ noVar noPairs noLevel m ρ main
    (Gen.segs m (outs m) noVar noPairs noLevel (fun _ c => side c) () (pdats m) (foldSeg m) (accSeg m))
    (fun c Q => by
      rewrite [main_chain c, Seg.run_eq_chain,
        show (Gen.segs m (outs m) noVar noPairs noLevel (fun _ c => side c) () (pdats m) (foldSeg m) (accSeg m) c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => iprop(emp)) launchElt launch_ghost
    (T₀ := fun c => iprop(StableHlo.held (c : Thread nD τ) (Pipeline.ucRefs τ sig) (Gen.V0 m c) ∗ side c))
    (Tₙ := fun c => StableHlo.held (c : Thread nD τ) (Pipeline.ucRefs τ sig) (Gen.V4 m (outs m) c))
    (hch := fun c => ⟨.rfl, .rfl,
      (by show iprop(StableHlo.held (c : Thread nD τ) (Pipeline.ucRefs τ sig) (Gen.V2 m (outs m) c) ∗ side c) ⊢ _
          rw [V2_eq]; exact .rfl),
      .rfl, sep_mono .rfl (by iintro ⟨-, H⟩; iexact H)⟩)
    (hinit := ?_) (QY := fun c s => ∀ b ∈ Pipeline.ucRefs τ sig, s.mem (((c : Thread nD τ)).1, b) = Gen.V4 m (outs m) c b)
    (hfin := fun c s' => ?_) (hQ := fun _ h => h)
  · refine Pipeline.initEach noPairs noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hbufs, -, Hdebt, -, Hreg, -⟩, -⟩
    imodintro
    isplitl [Hbufs]; · iexact Hbufs
    isplitl [Hreg]; · iexists _; iexact Hreg
    iexists ∅; iexact Hdebt
  · iintro ⟨Hbufs, HSI⟩
    unfold StableHlo.held
    imodintro
    iapply (pointsTo_read_all (Pipeline.ucRefs τ sig) (fun b => (((c : Thread nD τ)).1, b)) (Gen.V4 m (outs m) c) s')
    isplitl [Hbufs] <;> iassumption

/-- The run as the value claim reads it: the result buffer at the last valuation, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v4) = Gen.V4 m (outs m) c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v4 (by decide)),
      (h c _ (mem_uc main_arg0 (by decide))).trans (Gen.V4_main_arg0 m (outs m) c),
      (h c _ (mem_uc main_arg1 (by decide))).trans (Gen.V4_main_arg1 m (outs m) c),
      (h c _ (mem_uc main_arg2 (by decide))).trans (Gen.V4_main_arg2 m (outs m) c),
      (h c _ (mem_uc main_arg3 (by decide))).trans (Gen.V4_main_arg3 m (outs m) c)⟩) (run_all m ρ)

end Cert.KernelIdeal.Whole

end
-- ==== Proof.Spec.lean ====
/-
  The mathematics both programs compute, over the extended reals, index by index and over literal shapes.

  Inputs: activations x[4, 2048, 4096], a weight W[4096, 4096] and a rank-16 update B[4096, 16] · A[16, 4096].
  The kernel first folds the update into the weight,  E[o, k] = W[o, k] + 2 · Σ_r B[o, r] · A[r, k],  and then
  multiplies the activations, read as 8192 rows, by Eᵀ, summing the contraction axis in two halves of 2048.
  The reference computes  Σ_d x[b, s, d] · W[o, d] + (Σ_d x[b, s, d] · (Σ_r B[o, r] · A[r, d])) · 2.
  The definitions below name these functions; that the two agree on finite inputs is proved in its own module.
-/
import Idealize.ShloMosaic.PureOps.Ideal
import Idealize.ShloMosaic.Lib.ValueIdx

noncomputable section

namespace Cert.Spec

open Idealize.ShloMosaic Idealize.ShloMosaic.ValueIdx

abbrev Sx : Shape := ⟨3, ![4, 2048, 4096]⟩
abbrev Sw : Shape := ⟨2, ![4096, 4096]⟩
abbrev Sa : Shape := ⟨2, ![16, 4096]⟩
abbrev Sb : Shape := ⟨2, ![4096, 16]⟩
abbrev Sm : Shape := ⟨2, ![8192, 4096]⟩

/-- The scale of the low-rank update: the float literal both programs spell, 2.0. -/
def two : EReal := Ideal.ofBits .f32 0x40000000#32

/-- Position `k` of the first half of the contraction axis, -/
def lo (k : Fin 2048) : Fin 4096 := ⟨k.val, by omega⟩
/-- and of the second half. -/
def hi (k : Fin 2048) : Fin 4096 := ⟨2048 + k.val, by omega⟩

/-- The folded weight at row `o`, column `k`. -/
def effWAt (W : Sw.Idx → EReal) (B : Sb.Idx → EReal) (A : Sa.Idx → EReal) (o k : Fin 4096) : EReal :=
  W (ix2 o k) + two * ∑ r : Fin 16, B (ix2 o r) * A (ix2 r k)
/-- The folded weight as an array. -/
def effW (W : Sw.Idx → EReal) (B : Sb.Idx → EReal) (A : Sa.Idx → EReal) : Sw.Idx → EReal :=
  fun i => effWAt W B A ⟨(i 0).val, (i 0).isLt⟩ ⟨(i 1).val, (i 1).isLt⟩

/-- Row `r` of `X` against row `o` of `Wt`, the contraction summed as first half plus second half. -/
def mmAt (X : Sm.Idx → EReal) (Wt : Sw.Idx → EReal) (r : Fin 8192) (o : Fin 4096) : EReal :=
  (∑ k : Fin 2048, X (ix2 r (lo k)) * Wt (ix2 o (lo k))) + ∑ k : Fin 2048, X (ix2 r (hi k)) * Wt (ix2 o (hi k))
/-- The blocked product as an array. -/
def mm (X : Sm.Idx → EReal) (Wt : Sw.Idx → EReal) : Sm.Idx → EReal :=
  fun j => mmAt X Wt ⟨(j 0).val, (j 0).isLt⟩ ⟨(j 1).val, (j 1).isLt⟩

/-- The row of the 8192-row reading that batch `b`, position `s` lands on. -/
def flatRow (b : Fin 4) (s : Fin 2048) : Fin 8192 := ⟨2048 * b.val + s.val, by omega⟩
/-- The activations read as 8192 rows (row-major: row 2048·b + s is x[b, s, ·]). -/
def rows (x : Sx.Idx → EReal) : Sm.Idx → EReal :=
  fun j => x (ix3 (⟨(j 0).val / 2048, by have h : (j 0).val < 8192 := (j 0).isLt; omega⟩ : Fin 4) (⟨(j 0).val % 2048, Nat.mod_lt _ (by norm_num)⟩ : Fin 2048)
    (⟨(j 1).val, (j 1).isLt⟩ : Fin 4096))

/-- What the kernel's program leaves at [b, s, o]. -/
def kernelOutAt (x : Sx.Idx → EReal) (W : Sw.Idx → EReal) (A : Sa.Idx → EReal) (B : Sb.Idx → EReal)
    (b : Fin 4) (s : Fin 2048) (o : Fin 4096) : EReal :=
  mmAt (rows x) (effW W B A) (flatRow b s) o
def kernelOut (x : Sx.Idx → EReal) (W : Sw.Idx → EReal) (A : Sa.Idx → EReal) (B : Sb.Idx → EReal) : Sx.Idx → EReal :=
  fun i => kernelOutAt x W A B ⟨(i 0).val, (i 0).isLt⟩ ⟨(i 1).val, (i 1).isLt⟩ ⟨(i 2).val, (i 2).isLt⟩

/-- What the reference leaves at [b, s, o]. -/
def refOutAt (x : Sx.Idx → EReal) (W : Sw.Idx → EReal) (A : Sa.Idx → EReal) (B : Sb.Idx → EReal)
    (b : Fin 4) (s : Fin 2048) (o : Fin 4096) : EReal :=
  (∑ d : Fin 4096, x (ix3 b s d) * W (ix2 o d))
    + (∑ d : Fin 4096, x (ix3 b s d) * ∑ r : Fin 16, B (ix2 o r) * A (ix2 r d)) * two
def refOut (x : Sx.Idx → EReal) (W : Sw.Idx → EReal) (A : Sa.Idx → EReal) (B : Sb.Idx → EReal) : Sx.Idx → EReal :=
  fun i => refOutAt x W A B ⟨(i 0).val, (i 0).isLt⟩ ⟨(i 1).val, (i 1).isLt⟩ ⟨(i 2).val, (i 2).isLt⟩

end Cert.Spec

end
-- ==== Proof.Ideal.FoldValue.lean ====
/-
  What the first region leaves in the folded-weight array, as one function of the three argument arrays.
-/
import proofs.«123762_j39341900431501_1_alg».proof.Proof.Ideal.FoldRegion
import proofs.«123762_j39341900431501_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.FoldValue

open Idealize.ShloMosaic Idealize.ShloMosaic.TcCoe Idealize.ShloMosaic.ValueIdx Idealize.SL.Sem
open Idealize.ShloMosaic.Pipeline (Dat)
open Cert.KernelIdeal Cert.KernelIdeal.Gen

/-! ## The body's arithmetic at one element of the tile -/

/-- The left operand of the product is read at the output's row: axis 0 of the left operand is its free axis. -/
theorem lhs_axis0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
/-- and at the contraction index on axis 1, its contracted axis. -/
theorem lhs_axis1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
/-- The right operand is read at the contraction index on axis 0, its contracted axis, -/
theorem rhs_axis0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
/-- and at the output's column on axis 1, its free axis. -/
theorem rhs_axis1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- The product into a zero accumulator, at row `p` and column `q` of the tile: the sum over the sixteen
    contraction positions of the left operand's row against the right operand's column (the law that reads the
    product as the plain sum over its one contracted axis, re-indexed by that axis's coordinate). -/
theorem product_at (b : FVec Ideal S256x16 .bf16) (a : FVec Ideal S16x4096 .bf16) (p : Fin 256) (q : Fin 4096) :
    matmul (F := Ideal) dot_S256x16_S16x4096_S256x4096_1_0_0_1_n_n none b a (constant (F := Ideal) S256x4096 .f32 0x00000000#32) (ix2 p q)
      = ∑ r : Fin 16, b (ix2 p r) * a (ix2 r q) := by
  show FloatOps.matmul dot_S256x16_S16x4096_S256x4096_1_0_0_1_n_n none b a (constant (F := Ideal) S256x4096 .f32 0x00000000#32) (ix2 p q) = _
  rw [Ideal.matmul_constant_zero_apply, ← Equiv.sum_comp (ValueIdx.contrEquiv1 dot_S256x16_S16x4096_S256x4096_1_0_0_1_n_n 16 rfl rfl).symm]
  refine Finset.sum_congr rfl fun k _ => ?_
  have hk := ValueIdx.contrEquiv1_symm_val dot_S256x16_S16x4096_S256x4096_1_0_0_1_n_n 16 rfl rfl k
  have el : dot_S256x16_S16x4096_S256x4096_1_0_0_1_n_n.lhsIdx (ix2 p q) ((ValueIdx.contrEquiv1 dot_S256x16_S16x4096_S256x4096_1_0_0_1_n_n 16 rfl rfl).symm k) = ix2 p k := funext fun x => Fin.ext (by
    match x with
    | ⟨0, _⟩ => exact lhs_axis0 _ _
    | ⟨1, _⟩ => exact (lhs_axis1 _ _).trans hk)
  have er : dot_S256x16_S16x4096_S256x4096_1_0_0_1_n_n.rhsIdx (ix2 p q) ((ValueIdx.contrEquiv1 dot_S256x16_S16x4096_S256x4096_1_0_0_1_n_n 16 rfl rfl).symm k) = ix2 k q := funext fun x => Fin.ext (by
    match x with
    | ⟨0, _⟩ => exact (rhs_axis0 _ _).trans hk
    | ⟨1, _⟩ => exact rhs_axis1 _ _)
  rw [el, er]

/-- The body's stored value at row `p`, column `q` of the tile: the weight tile's element plus twice the sum over
    `r` of the B tile's row `p` against A's column `q` (the narrowings are the identity on the extended reals). -/
theorem payload_at (b : Vec Ideal S256x16 .f32) (a : Vec Ideal S16x4096 .f32) (w : Vec Ideal S256x4096 .f32)
    (p : Fin 256) (q : Fin 4096) :
    k0_pay1 (F := Ideal) b a w (ix2 p q) = w (ix2 p q) + Cert.Spec.two * ∑ r : Fin 16, b (ix2 p r) * a (ix2 r q) := by
  unfold Gen.k0_pay1
  rw [truncf_apply, addf_apply, mulf_apply, broadcast_apply, product_at]
  rfl

variable (V : (c : Dev nD) → (b : Ref sig .tc) → Buf (Elt Ideal) ((c : Thread nD τ).loc b))

/-! ## Which rows a tile holds -/

/-- The block each window addresses at grid point `t`, decided over the sixteen points: the weight, B and the
    result move down one block of 256 rows per point and stay at column block 0; A stays at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight tile at point `t` holds rows `256 t … 256 t + 255` of the weight, all 4096 columns. -/
theorem weight_tile_at (c : Dev nD) (t : Fin cfg0.N) (p : Fin 256) (q : Fin 4096) (o : Fin 4096)
    (ho : o.val = 256 * t.val + p.val) :
    Fold.tile (F := Ideal) V c 0 t (ix2 p q) = (V c main_arg1 : Cert.Spec.Sw.Idx → EReal) (ix2 o q) := by
  obtain ⟨e00, e01, -⟩ := index_facts t
  unfold Fold.tile
  rw [View.read_apply]
  show (V c main_arg1 : Cert.Spec.Sw.Idx → EReal) (((cfg0.win 0).blk t).view.emb (ix2 p q)) = _
  congr 1
  funext a
  apply Fin.ext
  match a with
  | ⟨0, _⟩ => show win0_0.index t (0 : Fin 2) * 256 + 1 * p.val = o.val; rw [e00, ho]; omega
  | ⟨1, _⟩ => show win0_0.index t (1 : Fin 2) * 4096 + 1 * q.val = q.val; rw [e01]; omega

/-- The B tile at point `t` holds the same 256 rows of B, all sixteen columns. -/
theorem b_tile_at (c : Dev nD) (t : Fin cfg0.N) (p : Fin 256) (r : Fin 16) (o : Fin 4096)
    (ho : o.val = 256 * t.val + p.val) :
    Fold.tile (F := Ideal) V c 1 t (ix2 p r) = (V c main_arg3 : Cert.Spec.Sb.Idx → EReal) (ix2 o r) := by
  obtain ⟨-, -, e10, e11, -⟩ := index_facts t
  unfold Fold.tile
  rw [View.read_apply]
  show (V c main_arg3 : Cert.Spec.Sb.Idx → EReal) (((cfg0.win 1).blk t).view.emb (ix2 p r)) = _
  congr 1
  funext a
  apply Fin.ext
  match a with
  | ⟨0, _⟩ => show win0_1.index t (0 : Fin 2) * 256 + 1 * p.val = o.val; rw [e10, ho]; omega
  | ⟨1, _⟩ => show win0_1.index t (1 : Fin 2) * 16 + 1 * r.val = r.val; rw [e11]; omega

/-- The A tile is the whole of A at every point. -/
theorem a_tile_at (c : Dev nD) (t : Fin cfg0.N) (r : Fin 16) (q : Fin 4096) :
    Fold.tile (F := Ideal) V c 2 t (ix2 r q) = (V c main_arg2 : Cert.Spec.Sa.Idx → EReal) (ix2 r q) := by
  obtain ⟨-, -, -, -, e20, e21, -⟩ := index_facts t
  unfold Fold.tile
  rw [View.read_apply]
  show (V c main_arg2 : Cert.Spec.Sa.Idx → EReal) (((cfg0.win 2).blk t).view.emb (ix2 r q)) = _
  congr 1
  funext a
  apply Fin.ext
  match a with
  | ⟨0, _⟩ => show win0_2.index t (0 : Fin 2) * 16 + 1 * r.val = r.val; rw [e20]; omega
  | ⟨1, _⟩ => show win0_2.index t (1 : Fin 2) * 4096 + 1 * q.val = q.val; rw [e21]; omega

/-! ## What a point writes back, and the array after the last point -/

/-- Element (p, q) of what point `t` writes back is the folded weight at row `256 t + p`, column `q`. -/
theorem flushed_at (c : Dev nD) (t : Fin cfg0.N) (p : Fin 256) (q : Fin 4096) (o : Fin 4096)
    (ho : o.val = 256 * t.val + p.val) :
    (Fold.dat (F := Ideal) V c).flushed 3 t (ix2 p q)
      = Cert.Spec.effWAt (V c main_arg1) (V c main_arg3) (V c main_arg2) o q := by
  show (cfg0.win 3).cut (grid0.coords t) ((Fold.dat (F := Ideal) V c).after 3 t) (ix2 p q) = _
  rw [Fold.dat_after3]
  refine (payload_at (Fold.tile (F := Ideal) V c 1 t) (Fold.tile (F := Ideal) V c 2 t) (Fold.tile (F := Ideal) V c 0 t) p q).trans ?_
  unfold Cert.Spec.effWAt
  rw [weight_tile_at V c t p q o ho]
  congr 2
  refine Finset.sum_congr rfl fun r _ => ?_
  rw [b_tile_at V c t p r o ho, a_tile_at V c t r q]

/-- What point `t` writes back is its block of the folded weight. -/
theorem flushed_eq (c : Dev nD) (t : Fin cfg0.N) :
    (Fold.dat (F := Ideal) V c).flushed 3 t
      = ((cfg0.win 3).blk t).view.read (Elt Ideal) (Cert.Spec.effW (V c main_arg1) (V c main_arg3) (V c main_arg2)) := by
  obtain ⟨-, -, -, -, -, -, e30, e31⟩ := index_facts t
  funext j
  obtain ⟨p, q, rfl⟩ : ∃ (p : Fin 256) (q : Fin 4096), j = ix2 p q := ⟨j 0, j 1, eq_ix2 j⟩
  rw [View.read_apply]
  have hN : cfg0.N = 16 := N_0
  have ht : t.val < 16 := hN ▸ t.isLt
  have hrow : ((((cfg0.win 3).blk t).view.emb (ix2 p q) : S4096x4096.Idx) 0).val = 256 * t.val + p.val := by
    show win0_3.index t (0 : Fin 2) * 256 + 1 * p.val = _; rw [e30]; omega
  have hcol : ((((cfg0.win 3).blk t).view.emb (ix2 p q) : S4096x4096.Idx) 1).val = q.val := by
    show win0_3.index t (1 : Fin 2) * 4096 + 1 * q.val = _; rw [e31]; omega
  refine (flushed_at V c t p q ⟨256 * t.val + p.val, by have := p.isLt; omega⟩ rfl).trans ?_
  show _ = Cert.Spec.effWAt (V c main_arg1) (V c main_arg3) (V c main_arg2) ⟨_, _⟩ ⟨_, _⟩
  congr 1
  · exact Fin.ext hrow.symm
  · exact Fin.ext hcol.symm

/-- An index of the result is in point `t`'s block iff each coordinate is in the block's range on its axis. -/
theorem mem_blk (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v0).slice (win0_3.rect t)).set ↔ _
  rw [View.set_slice_whole, Rect.mem_set_unit]
  exact Iff.rfl

/-- Every index of the result is written back: row `r` lies in the block of point `r / 256`. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, e30, e31⟩ := index_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e30, ht]; omega
  | ⟨1, _⟩ =>
    show win0_3.index t (1 : Fin 2) * 4096 ≤ (i 1).val ∧ (i 1).val < win0_3.index t (1 : Fin 2) * 4096 + 4096
    rw [e31]; omega

theorem fold_array (c : Dev nD) :
    (Fold.dat (F := Ideal) V c).arrAt 3 cfg0.N = Cert.Spec.effW (V c main_arg1) (V c main_arg3) (V c main_arg2) :=
  (Fold.dat (F := Ideal) V c).arrAt_eq_of_cover 3 (Cert.Spec.effW (V c main_arg1) (V c main_arg3) (V c main_arg2))
    (fun t _ => flushed_eq V c t) cover

end Cert.KernelIdeal.FoldValue

end
-- ==== Proof.Ideal.AccValue.lean ====
/-
  What the second region leaves in its result array, as one function of its two operand arrays.
-/
import proofs.«123762_j39341900431501_1_alg».proof.Proof.Ideal.AccRegion
import proofs.«123762_j39341900431501_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AccValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The body's arithmetic at an index -/

/-- The cleared accumulator reads zero everywhere. -/
theorem pay1_apply (p q : Fin 1024) : k1_pay1 (F := Ideal) (ix2 p q) = 0 := by
  unfold k1_pay1
  rw [shapeCast_self]
  exact Ideal.ofBits_zero_f32

/-- The left operand's row axis follows the output's row axis. -/
theorem lhs_axis_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
/-- The left operand's column axis is the contraction axis. -/
theorem lhs_axis_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
/-- The right operand's row axis follows the output's column axis. -/
theorem rhs_axis_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
/-- The right operand's column axis is the contraction axis. -/
theorem rhs_axis_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- One step of the body at an output index: what the accumulator held there plus the product of row `p` of the
    first tile with row `q` of the second, summed along their common last axis. -/
theorem pay2_apply (a b : Vec Ideal S1024x2048 .bf16) (s : Vec Ideal S1024x1024 .f32) (p q : Fin 1024) :
    k1_pay2 a b s (ix2 p q) = s (ix2 p q) + ∑ k : Fin 2048, a (ix2 p k) * b (ix2 q k) := by
  unfold k1_pay2
  rw [shapeCast_self, shapeCast_self, shapeCast_self, addf_apply]
  simp only [matmul]
  rw [Ideal.matmul_constant_zero_apply, ← Equiv.sum_comp (ValueIdx.contrEquiv1 dot_S1024x2048_S1024x2048_S1024x1024_1_1_0_0_n_n 2048 rfl rfl).symm]
  refine congrArg (s (ix2 p q) + ·) (Finset.sum_congr rfl fun k _ => ?_)
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q) ((ValueIdx.contrEquiv1 dot_S1024x2048_S1024x2048_S1024x1024_1_1_0_0_n_n 2048 rfl rfl).symm k) = ix2 p k := funext fun a => Fin.ext (by
    match a with
    | ⟨0, _⟩ => exact lhs_axis_0 _ _
    | ⟨1, _⟩ => exact (lhs_axis_1 _ _).trans hk)
  have er : dot_S1024x2048_S1024x2048_S1024x1024_1_1_0_0_n_n.rhsIdx (ix2 p q) ((ValueIdx.contrEquiv1 dot_S1024x2048_S1024x2048_S1024x1024_1_1_0_0_n_n 2048 rfl rfl).symm k) = ix2 q k := funext fun a => Fin.ext (by
    match a with
    | ⟨0, _⟩ => exact rhs_axis_0 _ _
    | ⟨1, _⟩ => exact (rhs_axis_1 _ _).trans hk)
  rw [el, er]

/-! ## The tiles of the two halves -/

/-- The printed index maps, decided over the grid: at a second half `t` the two input tiles are the second
    K-halves of the rows of the output tile's row block and column block, and at the point before they are the first
    K-halves of the same rows. -/
theorem tile_facts : ∀ t : Fin cfg1.N, t.val % 2 = 1 →
    win1_0.index (Acc.pred t) (0 : Fin 2) = win1_2.index t (0 : Fin 2) ∧ win1_0.index (Acc.pred t) (1 : Fin 2) = 0
    ∧ win1_1.index (Acc.pred t) (0 : Fin 2) = win1_2.index t (1 : Fin 2) ∧ win1_1.index (Acc.pred t) (1 : Fin 2) = 0
    ∧ win1_0.index t (0 : Fin 2) = win1_2.index t (0 : Fin 2) ∧ win1_0.index t (1 : Fin 2) = 1
    ∧ win1_1.index t (0 : Fin 2) = win1_2.index t (1 : Fin 2) ∧ win1_1.index t (1 : Fin 2) = 1
    ∧ win1_2.index t (0 : Fin 2) ≤ 7 ∧ win1_2.index t (1 : Fin 2) ≤ 3 :=
  (by decide +kernel : ∀ t : Fin grid1.N, t.val % 2 = 1 → _)

/-- Every output tile is some second half's. -/
theorem tile_onto : ∀ (q0 : Fin 8) (q1 : Fin 4), ∃ t : Fin cfg1.N, t.val % 2 = 1 ∧ win1_2.index t = ![q0.val, q1.val] :=
  (by decide +kernel : ∀ (q0 : Fin 8) (q1 : Fin 4), ∃ t : Fin grid1.N, t.val % 2 = 1 ∧ win1_2.index t = ![q0.val, q1.val])

/-- An activation tile at a point reads the activations' array at the tile's offset: row `p` of the tile is row
    (row-block index × 1024 + p) of the array, column `k` is column (K-block index × 2048 + k). -/
theorem tile0_apply (c : Dev nD) (u : Fin cfg1.N) (p : Fin 1024) (k : Fin 2048) (i : S8192x4096.Idx)
    (h0 : (i 0).val = win1_0.index u (0 : Fin 2) * 1024 + p.val) (h1 : (i 1).val = win1_0.index u (1 : Fin 2) * 2048 + k.val) :
    Acc.tile V c 0 u (ix2 p k) = V c main_v2 i := by
  unfold Acc.tile
  rw [View.read_apply]
  show V c main_v2 (((cfg1.win 0).blk u).view.emb (ix2 p k)) = V c main_v2 i
  refine congrArg _ (funext fun a => Fin.ext ?_)
  match a with
  | ⟨0, _⟩ => show win1_0.index u (0 : Fin 2) * 1024 + 1 * p.val = (i 0).val; omega
  | ⟨1, _⟩ => show win1_0.index u (1 : Fin 2) * 2048 + 1 * k.val = (i 1).val; omega

/-- A weight tile likewise, in the folded weight's array. -/
theorem tile1_apply (c : Dev nD) (u : Fin cfg1.N) (q : Fin 1024) (k : Fin 2048) (i : S4096x4096.Idx)
    (h0 : (i 0).val = win1_1.index u (0 : Fin 2) * 1024 + q.val) (h1 : (i 1).val = win1_1.index u (1 : Fin 2) * 2048 + k.val) :
    Acc.tile V c 1 u (ix2 q k) = V c main_v0 i := by
  unfold Acc.tile
  rw [View.read_apply]
  show V c main_v0 (((cfg1.win 1).blk u).view.emb (ix2 q k)) = V c main_v0 i
  refine congrArg _ (funext fun a => Fin.ext ?_)
  match a with
  | ⟨0, _⟩ => show win1_1.index u (0 : Fin 2) * 1024 + 1 * q.val = (i 0).val; omega
  | ⟨1, _⟩ => show win1_1.index u (1 : Fin 2) * 2048 + 1 * k.val = (i 1).val; omega

/-- The output tile a second half `t` leaves, at its entry (p, q): the blocked product at the entry of the array
    that the tile's offset puts there — the first half's partial sum (from zero) plus the second half's. -/
theorem full_apply (c : Dev nD) (t : Fin cfg1.N) (ht : t.val % 2 = 1) (p q : Fin 1024) (i : S8192x4096.Idx)
    (h0 : (i 0).val = win1_2.index t (0 : Fin 2) * 1024 + p.val) (h1 : (i 1).val = win1_2.index t (1 : Fin 2) * 1024 + q.val) :
    Acc.full V c t (ix2 p q) = Cert.Spec.mm (V c main_v2) (V c main_v0) i := by
  obtain ⟨e0, e1, e2, e3, e4, e5, e6, e7, b0, b1⟩ := tile_facts t ht
  unfold Acc.full Acc.half
  rw [pay2_apply, pay2_apply, pay1_apply, zero_add]
  unfold Cert.Spec.mm Cert.Spec.mmAt
  refine congrArg₂ (· + ·) (Finset.sum_congr rfl fun k _ => ?_) (Finset.sum_congr rfl fun k _ => ?_)
  · refine congrArg₂ (· * ·) (tile0_apply V c _ p k _ ?_ ?_) (tile1_apply V c _ q k _ ?_ ?_)
    · show (i 0).val = win1_0.index (Acc.pred t) (0 : Fin 2) * 1024 + p.val; omega
    · show k.val = win1_0.index (Acc.pred t) (1 : Fin 2) * 2048 + k.val; omega
    · show (i 1).val = win1_1.index (Acc.pred t) (0 : Fin 2) * 1024 + q.val; omega
    · show k.val = win1_1.index (Acc.pred t) (1 : Fin 2) * 2048 + k.val; omega
  · refine congrArg₂ (· * ·) (tile0_apply V c _ p k _ ?_ ?_) (tile1_apply V c _ q k _ ?_ ?_)
    · show (i 0).val = win1_0.index t (0 : Fin 2) * 1024 + p.val; omega
    · show 2048 + k.val = win1_0.index t (1 : Fin 2) * 2048 + k.val; omega
    · show (i 1).val = win1_1.index t (0 : Fin 2) * 1024 + q.val; omega
    · show 2048 + k.val = win1_1.index t (1 : Fin 2) * 2048 + k.val; omega

/-! ## What a second half writes back, and the array -/

/-- What a second half `t` writes back is its block of the blocked product of the two whole arrays. -/
theorem flushed_eq (c : Dev nD) (t : Fin cfg1.N) (ht : t.val % 2 = 1) :
    (Acc.dat (F := Ideal) V c).flushed 2 t
      = ((cfg1.win 2).blk t).view.read (Elt Ideal) (Cert.Spec.mm (V c main_v2) (V c main_v0)) := by
  show (cfg1.win 2).cut (grid1.coords t) ((Acc.dat V c).after 2 t) = _
  rw [Acc.dat_after2]
  refine funext fun (j : S1024x1024.Idx) => ?_
  obtain ⟨p, q, rfl⟩ : ∃ (p q : Fin 1024), j = ix2 p q := ⟨j 0, j 1, eq_ix2 j⟩
  rw [View.read_apply]
  show Acc.full V c t (ix2 p q) = Cert.Spec.mm (V c main_v2) (V c main_v0) (((cfg1.win 2).blk t).view.emb (ix2 p q))
  refine full_apply V c t ht p q _ ?_ ?_
  · show win1_2.index t (0 : Fin 2) * 1024 + 1 * p.val = win1_2.index t (0 : Fin 2) * 1024 + p.val; omega
  · show win1_2.index t (1 : Fin 2) * 1024 + 1 * q.val = win1_2.index t (1 : Fin 2) * 1024 + q.val; omega

/-- An entry of the result array lies in a point's output block iff each coordinate lies in the block's range on
    its axis. -/
theorem mem_blk (t : Fin cfg1.N) (i : S8192x4096.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v3).slice (win1_2.rect t)).set ↔ _
  rw [View.set_slice_whole, Rect.mem_set_unit]
  exact Iff.rfl

/-- Every entry (r, o) of the result array is written back by a second half: the one of output tile
    (r / 1024, o / 1024). -/
theorem cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht, hx⟩ := tile_onto ⟨(i 0).val / 1024, by omega⟩ ⟨(i 1).val / 1024, by omega⟩
  have q0 : win1_2.index t (0 : Fin 2) = (i 0).val / 1024 := congrFun hx 0
  have q1 : win1_2.index t (1 : Fin 2) = (i 1).val / 1024 := congrFun hx 1
  refine ⟨t, (flush1_2 t).mpr ht, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

theorem acc_array (c : Dev nD) :
    (Acc.dat (F := Ideal) V c).arrAt 2 cfg1.N = Cert.Spec.mm (V c main_v2) (V c main_v0) := by
  exact (Acc.dat (F := Ideal) V c).arrAt_eq_of_cover 2 (Cert.Spec.mm (V c main_v2) (V c main_v0))
    (fun t hf => flushed_eq V c t ((flush1_2 t).mp hf)) cover

end Cert.KernelIdeal.AccValue

end
-- ==== Proof.Ideal.Bridge.lean ====
/-
  From the run's last valuation to the specification. The result buffer holds the blocked product read back as
  [4, 2048, 4096]; the product's left operand is the activations read as 8192 rows (a change of float format is the
  identity on extended reals), its right operand the folded weight the first region left. Reading a row-major
  reshape at an index is arithmetic on the flat position: row 2048·b + s of the 8192-row reading is entry [b, s].
-/
import proofs.«123762_j39341900431501_1_alg».proof.Proof.Ideal.Segments
import proofs.«123762_j39341900431501_1_alg».proof.Proof.Ideal.FoldValue
import proofs.«123762_j39341900431501_1_alg».proof.Proof.Ideal.AccValue
import proofs.«123762_j39341900431501_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.Whole

variable (m : (ℓ : Loc nD τ sig) → Buf (Elt Ideal) ℓ)

/-! ## The two reshapes, by coordinates -/

/-- An array [4, 2048, 4096] read as [8192, 4096]: row `r` is entry [r / 2048, r % 2048] (same flat position). -/
theorem flatten_apply {α : Type} (x : (⟨3, ![4, 2048, 4096]⟩ : Shape).Idx → α)
    (h : (⟨3, ![4, 2048, 4096]⟩ : Shape).ShapeCasts ⟨2, ![8192, 4096]⟩) (r : Fin 8192) (d : Fin 4096) :
    shapeCast ⟨2, ![8192, 4096]⟩ x h (ix2 r d)
      = x (ix3 (⟨r.val / 2048, by have := r.isLt; omega⟩ : Fin 4) (⟨r.val % 2048, Nat.mod_lt _ (by norm_num)⟩ : Fin 2048) d) :=
  shapeCast_apply x h _ _ (by
    rw [Shape.rowMajor_val_three, Shape.rowMajor_val_two]
    show (r.val / 2048 * 2048 + r.val % 2048) * 4096 + d.val = r.val * 4096 + d.val
    have := Nat.div_add_mod r.val 2048
    omega)

/-- An array [8192, 4096] read back as [4, 2048, 4096]: entry [b, s] is row 2048·b + s. -/
theorem unflatten_apply {α : Type} (y : (⟨2, ![8192, 4096]⟩ : Shape).Idx → α)
    (h : (⟨2, ![8192, 4096]⟩ : Shape).ShapeCasts ⟨3, ![4, 2048, 4096]⟩) (b : Fin 4) (s : Fin 2048) (o : Fin 4096) :
    shapeCast ⟨3, ![4, 2048, 4096]⟩ y h (ix3 b s o) = y (ix2 (Cert.Spec.flatRow b s) o) :=
  shapeCast_apply y h _ _ (by
    rw [Shape.rowMajor_val_two, Shape.rowMajor_val_three]
    show (2048 * b.val + s.val) * 4096 + o.val = (b.val * 2048 + s.val) * 4096 + o.val
    omega)

/-! ## The second region's operands -/

/-- Its weight operand is the folded weight: the host stretch between the regions does not write that buffer, and
    the first region left there the fold of its write-backs. -/
theorem mid_weight (c : Dev nD) :
    midVal m c main_v0 = Cert.Spec.effW (m ((c.tc : Thread nD τ).loc main_arg1)) (m ((c.tc : Thread nD τ).loc main_arg3)) (m ((c.tc : Thread nD τ).loc main_arg2)) := by
  have h1 : midVal m c main_v0 = foldOut m c := by
    unfold midVal
    rw [StableHlo.after_of_writes_sub hostOps1 _ Gen.hostOps1_writes (by decide : main_v0 ∉ Gen.hostOps1_W)]
    exact Function.update_self ..
  rw [h1]
  exact Cert.KernelIdeal.FoldValue.fold_array (atLaunch m) c

/-- Its activation operand is the launch activations read as 8192 rows. -/
theorem mid_rows (c : Dev nD) : midVal m c main_v2 = Cert.Spec.rows (m ((c.tc : Thread nD τ).loc main_arg0)) := by
  unfold midVal
  show StableHlo.after hostOps1 _ (Proc.devRef .tc main_v2) = _
  after_results
  rw [Function.update_of_ne (StableHlo.devRef_ne_of_ne (by decide))]
  funext j
  obtain ⟨r, d, rfl⟩ : ∃ (r : Fin 8192) (d : Fin 4096), j = ix2 r d := ⟨j 0, j 1, eq_ix2 j⟩
  exact flatten_apply (m ((c.tc : Thread nD τ).loc main_arg0)) shapeCasts_S4x2048x4096_S8192x4096 r d

/-! ## The result -/

/-- The result buffer after the run: the specification's `kernelOut` of the four launch arrays. -/
theorem result_eq (c : Dev nD) :
    Gen.V4 m (outs m) c main_v4 = Cert.Spec.kernelOut (m ((c.tc : Thread nD τ).loc main_arg0)) (m ((c.tc : Thread nD τ).loc main_arg1))
      (m ((c.tc : Thread nD τ).loc main_arg2)) (m ((c.tc : Thread nD τ).loc main_arg3)) := by
  have hprod : Gen.V3 m (outs m) c main_v3 = Cert.Spec.mm (midVal m c main_v2) (midVal m c main_v0) := by
    show Function.update (Gen.V2 m (outs m) c) main_v3 (outs m 3 main_v3 c) main_v3 = _
    rw [Function.update_self, outs_acc]
    exact Cert.KernelIdeal.AccValue.acc_array (atMid m) c
  show StableHlo.after hostOps2 (Gen.V3 m (outs m) c) (Proc.devRef .tc main_v4) = _
  after_results
  rw [hprod, mid_rows, mid_weight]
  funext i
  obtain ⟨b, s, o, rfl⟩ : ∃ (b : Fin 4) (s : Fin 2048) (o : Fin 4096), i = ix3 b s o := ⟨i 0, i 1, i 2, eq_ix3 i⟩
  exact unflatten_apply _ shapeCasts_S8192x4096_S4x2048x4096 b s o

end Cert.KernelIdeal.Bridge

end
-- ==== Proof.RefRun.lean ====
/-
  The reference program's run and its stage-by-stage reading, gathered in one place for the modules that
  compare it with the kernel's value.
-/
import proofs.«123762_j39341900431501_1_alg».proof.Proof.Gen.ReferenceIdeal.Run
import proofs.«123762_j39341900431501_1_alg».proof.Proof.Gen.ReferenceIdeal.Read
-- ==== Proof.RefValue.lean ====
/-
  The reference's result, stage by stage, is the specification's `refOut`.
-/
import proofs.«123762_j39341900431501_1_alg».proof.Proof.RefRun
import proofs.«123762_j39341900431501_1_alg».proof.Proof.Spec

noncomputable section

namespace Cert.ReferenceIdeal.RefValue

open Idealize.ShloMosaic Idealize.ShloMosaic.ValueIdx Cert.ReferenceIdeal Cert.ReferenceIdeal.Read

/-- The left operand of the first contraction is read at [b, s, k]. -/
theorem lidx_v0 (b : Fin 4) (s : Fin 2048) (o k : Fin 4096) : lidx_main_v0 (ix3 b s o) k = ix3 b s k :=
  funext fun a => Fin.ext (by match a with | ⟨0, _⟩ => rfl | ⟨1, _⟩ => rfl | ⟨2, _⟩ => rfl)

/-- The right operand of the first contraction is read at [o, k]. -/
theorem ridx_v0 (b : Fin 4) (s : Fin 2048) (o k : Fin 4096) : ridx_main_v0 (ix3 b s o) k = ix2 o k :=
  funext fun a => Fin.ext (by match a with | ⟨0, _⟩ => rfl | ⟨1, _⟩ => rfl)

/-- The left operand of the outer low-rank contraction is read at [b, s, k]. -/
theorem lidx_v2 (b : Fin 4) (s : Fin 2048) (o k : Fin 4096) : lidx_main_v2 (ix3 b s o) k = ix3 b s k :=
  funext fun a => Fin.ext (by match a with | ⟨0, _⟩ => rfl | ⟨1, _⟩ => rfl | ⟨2, _⟩ => rfl)

/-- The right operand of the outer low-rank contraction is read at [o, k]. -/
theorem ridx_v2 (b : Fin 4) (s : Fin 2048) (o k : Fin 4096) : ridx_main_v2 (ix3 b s o) k = ix2 o k :=
  funext fun a => Fin.ext (by match a with | ⟨0, _⟩ => rfl | ⟨1, _⟩ => rfl)

/-- The left operand of the rank-16 product at [o, d] is read at [o, r]. -/
theorem lidx_v1 (o d : Fin 4096) (r : Fin 16) : lidx_main_v1 (ix2 o d) r = ix2 o r :=
  funext fun a => Fin.ext (by match a with | ⟨0, _⟩ => rfl | ⟨1, _⟩ => rfl)

/-- The right operand of the rank-16 product at [o, d] is read at [r, d]. -/
theorem ridx_v1 (o d : Fin 4096) (r : Fin 16) : ridx_main_v1 (ix2 o d) r = ix2 r d :=
  funext fun a => Fin.ext (by match a with | ⟨0, _⟩ => rfl | ⟨1, _⟩ => rfl)

theorem ref_is_spec (x0 : (⟨S4x2048x4096, .f32⟩ : BufTy).Contents (Elt Ideal)) (x1 : (⟨S4096x4096, .f32⟩ : BufTy).Contents (Elt Ideal))
    (x2 : (⟨S16x4096, .f32⟩ : BufTy).Contents (Elt Ideal)) (x3 : (⟨S4096x16, .f32⟩ : BufTy).Contents (Elt Ideal)) :
    val_main_v5 (F := Ideal) x0 x1 x2 x3 = Cert.Spec.refOut x0 x1 x2 x3 := by
  funext i
  obtain ⟨b, s, o, rfl⟩ : ∃ (b : Fin 4) (s : Fin 2048) (o : Fin 4096), i = ix3 b s o := ⟨i 0, i 1, i 2, eq_ix3 i⟩
  rw [val_main_v5_apply, val_main_v4_apply, val_main_v3_apply, val_main_cst_apply, val_main_v2_apply, val_main_v0_apply]
  simp only [val_main_v1_apply, lidx_v0, ridx_v0, lidx_v2, ridx_v2, lidx_v1, ridx_v1, Ideal.mulf_def, Ideal.addf_def,
    Ideal.ofBits_def]
  rfl

end Cert.ReferenceIdeal.RefValue

end
-- ==== Proof.LibERealSums.lean ====
/-
  Real numbers read as extended reals: finite sums and the arithmetic operations commute with the reading, and the
  operations that have corner cases at infinity or at zero (quotient, square root, reciprocal square root) take their
  ordinary real values away from those corners.  Every statement is general: no array, no program.
-/
import Idealize.ShloMosaic.PureOps.Ideal

universe u

noncomputable section

namespace Cert.LibEReal

open Idealize.ShloMosaic

/-! ### Sums -/

/-- Reading a finite sum of reals as an extended real is the sum of the readings (the reading is additive and sends
    zero to zero; induction on the index set). -/
theorem coe_sum {ι : Type u} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same read right to left: a sum of readings folds into the reading of the real sum. -/
theorem sum_coe {ι : Type u} (s : Finset ι) (f : ι → ℝ) :
    ∑ i ∈ s, ((f i : ℝ) : EReal) = ((∑ i ∈ s, f i : ℝ) : EReal) :=
  (coe_sum s f).symm

/-- A sum of products of readings is the reading of the real sum of products: the shape a contraction of two arrays
    of finite numbers takes. -/
theorem sum_coe_mul_coe {ι : Type u} (s : Finset ι) (f g : ι → ℝ) :
    ∑ i ∈ s, ((f i : ℝ) : EReal) * ((g i : ℝ) : EReal) = ((∑ i ∈ s, f i * g i : ℝ) : EReal) := by
  rw [coe_sum]
  exact Finset.sum_congr rfl fun i _ => (EReal.coe_mul (f i) (g i)).symm

/-- Zero plus a sum of readings: the shape a reduction that starts from the zero constant takes. -/
theorem zero_add_coe_sum {ι : Type u} (s : Finset ι) (f : ι → ℝ) :
    (0 : EReal) + ∑ i ∈ s, ((f i : ℝ) : EReal) = ((∑ i ∈ s, f i : ℝ) : EReal) := by
  rw [zero_add, coe_sum]

/-- The same with the starting zero itself spelled as the reading of the real zero. -/
theorem coe_zero_add_coe_sum {ι : Type u} (s : Finset ι) (f : ι → ℝ) :
    ((0 : ℝ) : EReal) + ∑ i ∈ s, ((f i : ℝ) : EReal) = ((∑ i ∈ s, f i : ℝ) : EReal) := by
  rw [EReal.coe_zero, zero_add, coe_sum]

/-- Zero plus a sum of products of readings: a contraction accumulated into the zero constant. -/
theorem zero_add_sum_coe_mul_coe {ι : Type u} (s : Finset ι) (f g : ι → ℝ) :
    (0 : EReal) + ∑ i ∈ s, ((f i : ℝ) : EReal) * ((g i : ℝ) : EReal) = ((∑ i ∈ s, f i * g i : ℝ) : EReal) := by
  rw [zero_add, sum_coe_mul_coe]

/-! ### Sum, difference, product, negation and maximum of two readings, folded into one reading -/

/-- The sum of two readings is the reading of the sum. -/
theorem coe_add_coe (a b : ℝ) : ((a : ℝ) : EReal) + (b : EReal) = ((a + b : ℝ) : EReal) :=
  (EReal.coe_add a b).symm

/-- The difference of two readings is the reading of the difference. -/
theorem coe_sub_coe (a b : ℝ) : ((a : ℝ) : EReal) - (b : EReal) = ((a - b : ℝ) : EReal) :=
  (EReal.coe_sub a b).symm

/-- The product of two readings is the reading of the product. -/
theorem coe_mul_coe (a b : ℝ) : ((a : ℝ) : EReal) * (b : EReal) = ((a * b : ℝ) : EReal) :=
  (EReal.coe_mul a b).symm

/-- The negative of a reading is the reading of the negative. -/
theorem neg_coe (a : ℝ) : -((a : ℝ) : EReal) = ((-a : ℝ) : EReal) :=
  (EReal.coe_neg a).symm

/-- A finite number minus itself is zero (false at the two infinities, true at every real). -/
theorem coe_sub_self (a : ℝ) : ((a : ℝ) : EReal) - (a : EReal) = 0 := by
  rw [← EReal.coe_sub, sub_self, EReal.coe_zero]

/-- The same with the zero spelled as the reading of the real zero. -/
theorem coe_sub_self' (a : ℝ) : ((a : ℝ) : EReal) - (a : EReal) = ((0 : ℝ) : EReal) := by
  rw [← EReal.coe_sub, sub_self]

/-- The larger of two readings is the reading of the larger (the reading is monotone). -/
theorem coe_max (a b : ℝ) : max ((a : ℝ) : EReal) (b : EReal) = ((max a b : ℝ) : EReal) :=
  (EReal.coe_strictMono.monotone.map_max (a := a) (b := b)).symm

/-- The smaller of two readings is the reading of the smaller. -/
theorem coe_min (a b : ℝ) : min ((a : ℝ) : EReal) (b : EReal) = ((min a b : ℝ) : EReal) :=
  (EReal.coe_strictMono.monotone.map_min (a := a) (b := b)).symm

/-- Clipping a reading at the extended real zero. -/
theorem coe_max_zero (a : ℝ) : max ((a : ℝ) : EReal) 0 = ((max a 0 : ℝ) : EReal) := by
  rw [← EReal.coe_zero, coe_max]

/-- The same with zero on the left. -/
theorem zero_max_coe (a : ℝ) : max 0 ((a : ℝ) : EReal) = ((max 0 a : ℝ) : EReal) := by
  rw [← EReal.coe_zero, coe_max]

/-! ### Quotient and roots away from their corners -/

/-- The quotient of two readings with a nonzero divisor is the reading of the real quotient. -/
theorem div_coe_coe {y : ℝ} (hy : y ≠ 0) (x : ℝ) :
    Ideal.div (x : EReal) (y : EReal) = ((x / y : ℝ) : EReal) := by
  rw [Ideal.div_coe hy, ← EReal.coe_mul, mul_one_div]

/-- The square root of the reading of a nonnegative real is the reading of its real square root. -/
theorem sqrt_coe_nonneg {r : ℝ} (h : 0 ≤ r) : Ideal.sqrt (r : EReal) = ((Real.sqrt r : ℝ) : EReal) := by
  rw [Ideal.sqrt_coe, if_neg (not_lt.mpr h)]

/-- The reciprocal square root of the reading of a positive real is the reading of the reciprocal of its real square
    root. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

end Cert.LibEReal

end
-- ==== Proof.Algebra.lean ====
/-
  The two arrangements of the same sum agree on finite inputs.
-/
import proofs.«123762_j39341900431501_1_alg».proof.Proof.Spec
import proofs.«123762_j39341900431501_1_alg».proof.Proof.LibERealSums
import Mathlib.Algebra.BigOperators.Fin
import Mathlib.Tactic.Ring

noncomputable section

namespace Cert.Spec

open Idealize.ShloMosaic Idealize.ShloMosaic.ValueIdx

/-- Every entry of the array is a real number. -/
def Finite {S : Shape} (f : S.Idx → EReal) : Prop := ∀ i, ∃ r : ℝ, f i = (r : EReal)

/-- The float literal 2.0 denotes the real number 2. -/
theorem two_eq : two = ((2 : ℝ) : EReal) := by
  unfold two
  simp [Ideal.ofBits, Ideal.ieee, -EReal.coe_mul]; norm_num

/-- Row 2048·b + s of the 8192-row reading is x[b, s, ·]: (2048·b + s) / 2048 = b and (2048·b + s) % 2048 = s
    because s < 2048. -/
theorem rows_flatRow (x : Sx.Idx → EReal) (b : Fin 4) (s : Fin 2048) (d : Fin 4096) :
    rows x (ix2 (flatRow b s) d) = x (ix3 b s d) := by
  have hb := b.isLt
  have hs := s.isLt
  unfold rows
  congr 1
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-- The folded weight array at the index built from (o, k) is the folded weight at row o, column k. -/
theorem effW_ix2 (W : Sw.Idx → EReal) (B : Sb.Idx → EReal) (A : Sa.Idx → EReal) (o k : Fin 4096) :
    effW W B A (ix2 o k) = effWAt W B A o k := rfl

/-- A sum over 4096 positions is the sum over the first 2048 plus the sum over the last 2048. -/
theorem sum_halves (f : Fin 4096 → ℝ) :
    ∑ d : Fin 4096, f d = (∑ k : Fin 2048, f (lo k)) + ∑ k : Fin 2048, f (hi k) :=
  Fin.sum_univ_add (a := 2048) (b := 2048) f

/-- The identity over the reals: Σ_k u·(w + 2·c) taken in two halves is Σ u·w + (Σ u·c)·2. -/
theorem real_core (u w c : Fin 4096 → ℝ) :
    (∑ k : Fin 2048, u (lo k) * (w (lo k) + 2 * c (lo k))) + ∑ k : Fin 2048, u (hi k) * (w (hi k) + 2 * c (hi k))
      = (∑ d : Fin 4096, u d * w d) + (∑ d : Fin 4096, u d * c d) * 2 := by
  have h : ∀ d, u d * (w d + 2 * c d) = u d * w d + (u d * c d) * 2 := fun d => by ring
  rw [sum_halves (fun d => u d * w d), sum_halves (fun d => u d * c d)]
  simp only [h, Finset.sum_add_distrib, ← Finset.sum_mul]
  ring

/-- On finite inputs the kernel's value and the reference's value at [b, s, o] are the same real number. -/
theorem kernelOutAt_eq_refOutAt (x : Sx.Idx → EReal) (W : Sw.Idx → EReal) (A : Sa.Idx → EReal) (B : Sb.Idx → EReal)
    (hx : Finite x) (hW : Finite W) (hA : Finite A) (hB : Finite B) (b : Fin 4) (s : Fin 2048) (o : Fin 4096) :
    kernelOutAt x W A B b s o = refOutAt x W A B b s o := by
  choose xr hxr using (hx : ∀ i, ∃ r : ℝ, x i = (r : EReal))
  choose Wr hWr using (hW : ∀ i, ∃ r : ℝ, W i = (r : EReal))
  choose Ar hAr using (hA : ∀ i, ∃ r : ℝ, A i = (r : EReal))
  choose Br hBr using (hB : ∀ i, ∃ r : ℝ, B i = (r : EReal))
  unfold kernelOutAt refOutAt mmAt
  simp only [rows_flatRow, effW_ix2, effWAt, two_eq, hxr, hWr, hAr, hBr, LibEReal.coe_mul_coe, LibEReal.sum_coe,
    LibEReal.coe_add_coe]
  rw [EReal.coe_eq_coe_iff]
  exact (real_core (fun d => xr (ix3 b s d)) (fun d => Wr (ix2 o d))
    (fun d => ∑ r : Fin 16, Br (ix2 o r) * Ar (ix2 r d)))

theorem kernelOut_eq_refOut (x : Sx.Idx → EReal) (W : Sw.Idx → EReal) (A : Sa.Idx → EReal) (B : Sb.Idx → EReal)
    (hx : Finite x) (hW : Finite W) (hA : Finite A) (hB : Finite B) : kernelOut x W A B = refOut x W A B := by
  funext i
  unfold kernelOut refOut
  exact kernelOutAt_eq_refOutAt x W A B hx hW hA hB _ _ _

end Cert.Spec

end
-- ==== Proof.Finite.lean ====
/-
  The precondition, read: when the printed predicate `finite_inputs` is all ones, every entry of each of the four
  input arrays is a real number (its absolute value lies strictly below +∞, and it is not a NaN reading).
-/
import proofs.«123762_j39341900431501_1_alg».proof.Pre_finite_inputs
import proofs.«123762_j39341900431501_1_alg».proof.Proof.Algebra
import Idealize.ShloMosaic.Lib.ReduceAll

noncomputable section

namespace Cert.Spec

open Idealize.ShloMosaic

/-- The word 0x7F800000 denotes +∞. -/
theorem ofBits_inf : Ideal.ofBits .f32 0x7F800000#32 = (⊤ : EReal) := by
  simp [Ideal.ofBits, Ideal.ieee]

/-- An extended real whose absolute value max v (−v) lies strictly below +∞ is a real number: at −∞ and at +∞ that
    maximum is +∞ itself. -/
theorem real_of_abs_lt_top (v : EReal) (h : max v (-v) < ⊤) : ∃ r : ℝ, v = (r : EReal) := by
  induction v using EReal.rec with
  | bot => simp at h
  | top => simp at h
  | coe r => exact ⟨r, rfl⟩

/-- The comparison |v| < +∞, read as a one-bit word: when the word is 1 the value is a real number. -/
theorem real_of_cmp (v : Ideal .f32)
    (h : FloatOps.cmpf .olt (FloatOps.hostAbsf v) (FloatOps.ofBits (F := Ideal) .f32 0x7F800000#32) = 1#1) :
    ∃ r : ℝ, (v : EReal) = (r : EReal) := by
  have h' : Ideal.cmp .olt (max (v : EReal) (-(v : EReal))) (Ideal.ofBits .f32 0x7F800000#32) = 1#1 := h
  rw [ofBits_inf] at h'
  refine real_of_abs_lt_top v ?_
  by_contra hlt
  simp [Ideal.cmp, hlt] at h'

/-- The scalar shape has one index. -/
instance : Subsingleton Cert.Pre_finite_inputs.S_.Idx := ⟨fun a b => funext fun d => d.elim0⟩

theorem finite_of_pre [Cert.Pre_finite_inputs.Facts]
    (x : FVec Ideal Cert.Pre_finite_inputs.S4x2048x4096 .f32) (W : FVec Ideal Cert.Pre_finite_inputs.S4096x4096 .f32)
    (A : FVec Ideal Cert.Pre_finite_inputs.S16x4096 .f32) (B : FVec Ideal Cert.Pre_finite_inputs.S4096x16 .f32)
    (h : Cert.Pre_finite_inputs.fn (F := Ideal) x W A B = fun _ => 1#1) :
    Finite (S := Sx) x ∧ Finite (S := Sw) W ∧ Finite (S := Sa) A ∧ Finite (S := Sb) B := by
  have h0 := congrFun h ValueIdx.ix0
  dsimp only [Cert.Pre_finite_inputs.fn, Cert.Pre_finite_inputs.fn_part1] at h0
  change IntOp.andi (IntOp.andi (IntOp.andi _ _) _) _ = 1#1 at h0
  rw [IntOp.andi_eq_one, IntOp.andi_eq_one, IntOp.andi_eq_one] at h0
  obtain ⟨⟨⟨h1, h2⟩, h3⟩, h4⟩ := h0
  refine ⟨fun i => ?_, fun i => ?_, fun i => ?_, fun i => ?_⟩
  · exact real_of_cmp (x i) (Host.reduce_andi_all _ _ _ _ _ h1 i)
  · exact real_of_cmp (W i) (Host.reduce_andi_all _ _ _ _ _ h2 i)
  · exact real_of_cmp (A i) (Host.reduce_andi_all _ _ _ _ _ h3 i)
  · exact real_of_cmp (B i) (Host.reduce_andi_all _ _ _ _ _ h4 i)

end Cert.Spec

end
-- ==== Proof.lean ====
/-
  A linear layer with a rank-16 update:  out = x · Wᵀ + 2 · (x · (B · A)ᵀ)  on x[4, 2048, 4096], W[4096, 4096],
  A[16, 4096], B[4096, 16].

  The kernel's program runs two pipelined regions. The first folds the update into the weight, 256 rows at a
  time:  E = W + 2 · (B · A).  The second multiplies the activations, read as 8192 rows, by Eᵀ, an output tile
  of 1024 × 1024 at a time, summing the contraction axis in two halves of 2048 through an accumulator it keeps
  between grid points. The reference multiplies by W and by B · A separately, scales the second product by 2 and adds.

  Over the extended reals the two agree on finite inputs by distributivity and by splitting a sum of 4096 terms in
  two; distributivity fails at infinities, which is where the precondition (every input finite) is used.
  A change of float format is the identity on extended reals, so the kernel's narrowing of E and of x changes nothing.

  Frames: each region's body is run once at a symbolic grid point (by the parity of the point for the second region,
  whose accumulator the region's invariant carries), and the program's run is assembled from the two regions and the
  two host stretches between and after them. The reference has no kernel; its frame is its run with the result dropped.
-/
import proofs.«123762_j39341900431501_1_alg».proof.Defs
import proofs.«123762_j39341900431501_1_alg».proof.Proof.Gen.Kernel
import proofs.«123762_j39341900431501_1_alg».proof.Proof.Gen.KernelIdeal
import proofs.«123762_j39341900431501_1_alg».proof.Proof.Gen.ReferenceIdeal
import proofs.«123762_j39341900431501_1_alg».proof.Proof.Gen.Pre_finite_inputs
import proofs.«123762_j39341900431501_1_alg».proof.Proof.Bits.Segments
import proofs.«123762_j39341900431501_1_alg».proof.Proof.Ideal.Bridge
import proofs.«123762_j39341900431501_1_alg».proof.Proof.RefValue
import proofs.«123762_j39341900431501_1_alg».proof.Proof.Algebra
import proofs.«123762_j39341900431501_1_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Whole.frame (F := Bits) m ρ

/-- So does the idealized one. -/
theorem frame_kernelIdeal : Cert.frame_KernelIdeal := fun m ρ _ => Cert.KernelIdeal.Whole.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs end with equal results: the kernel's result buffer holds the specification's
    `kernelOut` of the launch arrays, the reference's its `refOut` of the same arrays (the memories agree on the
    arguments), and on finite arrays the two functions are one. -/
theorem algebraic : Cert.algebraic_KernelIdeal_ReferenceIdeal := by
  intro m ρ m' ρ' hpre hagree
  refine ⟨fun c => Cert.KernelIdeal.Gen.V4 m (Cert.KernelIdeal.Whole.outs m) c Cert.KernelIdeal.main_v4,
    Cert.KernelIdeal.Whole.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hA, hB⟩ := Cert.Spec.finite_of_pre _ _ _ _ (hpre c)
  rw [Cert.ReferenceIdeal.Read.val_main_v5_eq, Cert.ReferenceIdeal.RefValue.ref_is_spec,
    (hagree c).1, (hagree c).2.1, (hagree c).2.2.1, (hagree c).2.2.2]
  exact ((Cert.KernelIdeal.Bridge.result_eq m c).trans (Cert.Spec.kernelOut_eq_refOut _ _ _ _ hx hW hA hB)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
